-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S256x256 : Shape := ⟨2, ![256, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S8192x256 .f32) (main_arg1 : FVec F S256x256 .f32) (main_arg2 : FVec F S256x256 .f32) (main_arg3 : FVec F S256x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S8192x256 : Shape := ⟨2, ![8192, 256]⟩
abbrev S256x256 : Shape := ⟨2, ![256, 256]⟩
abbrev S15 : Shape := ⟨1, ![15]⟩
abbrev S8192 : Shape := ⟨1, ![8192]⟩
abbrev S8192x1 : Shape := ⟨2, ![8192, 1]⟩
abbrev S1x15 : Shape := ⟨2, ![1, 15]⟩
abbrev S8192x15 : Shape := ⟨2, ![8192, 15]⟩
abbrev S_ : Shape := ⟨0, ![]⟩
abbrev S1x8192 : Shape := ⟨2, ![1, 8192]⟩
abbrev S8192x8192 : Shape := ⟨2, ![8192, 8192]⟩
abbrev S2048x256 : Shape := ⟨2, ![2048, 256]⟩
abbrev S1024x2048 : Shape := ⟨2, ![1024, 2048]⟩
abbrev S1024x256 : Shape := ⟨2, ![1024, 256]⟩

abbrev nBuf : Space → Nat
  | .hbm => 47
  | .vmem => 36
  | .smem => 0
  | _ => 0

abbrev bufTy : (tb : Table) → Fin (tcTables nBuf tb) → BufTy
  | .hbm, ⟨0, _⟩ => ⟨S8192x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S15, .i32⟩
  | .hbm, ⟨5, _⟩ => ⟨S8192, .i32⟩
  | .hbm, ⟨6, _⟩ => ⟨S8192x1, .i32⟩
  | .hbm, ⟨7, _⟩ => ⟨S1x15, .i32⟩
  | .hbm, ⟨8, _⟩ => ⟨S8192x15, .i32⟩
  | .hbm, ⟨9, _⟩ => ⟨S8192x15, .i32⟩
  | .hbm, ⟨10, _⟩ => ⟨S8192x15, .i1⟩
  | .hbm, ⟨11, _⟩ => ⟨S_, .i1⟩
  | .hbm, ⟨12, _⟩ => ⟨S8192, .i1⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S8192, .i1⟩
  | .hbm, ⟨17, _⟩ => ⟨S8192, .i1⟩
  | .hbm, ⟨18, _⟩ => ⟨S8192x1, .i1⟩
  | .hbm, ⟨19, _⟩ => ⟨S1x8192, .i1⟩
  | .hbm, ⟨20, _⟩ => ⟨S8192x8192, .i1⟩
  | .hbm, ⟨21, _⟩ => ⟨S8192x8192, .i1⟩
  | .hbm, ⟨22, _⟩ => ⟨S8192x8192, .i1⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192, .f32⟩
  | .hbm, ⟨31, _⟩ => ⟨S8192x1, .f32⟩
  | .hbm, ⟨32, _⟩ => ⟨S8192x8192, .f32⟩
  | .hbm, ⟨33, _⟩ => ⟨S8192x8192, .f32⟩
  | .hbm, ⟨34, _⟩ => ⟨S1x8192, .f32⟩
  | .hbm, ⟨35, _⟩ => ⟨S8192x8192, .f32⟩
  | .hbm, ⟨36, _⟩ => ⟨S8192x8192, .f32⟩
  | .hbm, ⟨37, _⟩ => ⟨S8192x8192, .bf16⟩
  | .hbm, ⟨38, _⟩ => ⟨S256x256, .f32⟩
  | .hbm, ⟨39, _⟩ => ⟨S8192x256, .bf16⟩
  | .hbm, ⟨40, _⟩ => ⟨S8192x256, .f32⟩
  | .hbm, ⟨41, _⟩ => ⟨S256x256, .f32⟩
  | .hbm, ⟨42, _⟩ => ⟨S8192x256, .bf16⟩
  | .hbm, ⟨43, _⟩ => ⟨S8192x256, .f32⟩
  | .hbm, ⟨44, _⟩ => ⟨S256x256, .f32⟩
  | .hbm, ⟨45, _⟩ => ⟨S8192x256, .bf16⟩
  | .hbm, ⟨46, _⟩ => ⟨S8192x256, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S2048x256, .bf16⟩
  | .local _ .vmem, ⟨4, _⟩ => ⟨S2048x256, .bf16⟩
  | .local _ .vmem, ⟨5, _⟩ => ⟨S1024x2048, .bf16⟩
  | .local _ .vmem, ⟨6, _⟩ => ⟨S1024x2048, .bf16⟩
  | .local _ .vmem, ⟨7, _⟩ => ⟨S2048x256, .bf16⟩
  | .local _ .vmem, ⟨8, _⟩ => ⟨S2048x256, .bf16⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S2048x256, .f32⟩
  | .local _ .vmem, ⟨13, _⟩ => ⟨S2048x256, .f32⟩
  | .local _ .vmem, ⟨14, _⟩ => ⟨S256x256, .f32⟩
  | .local _ .vmem, ⟨15, _⟩ => ⟨S2048x256, .bf16⟩
  | .local _ .vmem, ⟨16, _⟩ => ⟨S2048x256, .bf16⟩
  | .local _ .vmem, ⟨17, _⟩ => ⟨S1024x2048, .bf16⟩
  | .local _ .vmem, ⟨18, _⟩ => ⟨S1024x2048, .bf16⟩
  | .local _ .vmem, ⟨19, _⟩ => ⟨S2048x256, .bf16⟩
  | .local _ .vmem, ⟨20, _⟩ => ⟨S2048x256, .bf16⟩
  | .local _ .vmem, ⟨21, _⟩ => ⟨S1024x256, .f32⟩
  | .local _ .vmem, ⟨22, _⟩ => ⟨S1024x256, .f32⟩
  | .local _ .vmem, ⟨23, _⟩ => ⟨S1024x256, .f32⟩
  | .local _ .vmem, ⟨24, _⟩ => ⟨S2048x256, .f32⟩
  | .local _ .vmem, ⟨25, _⟩ => ⟨S2048x256, .f32⟩
  | .local _ .vmem, ⟨26, _⟩ => ⟨S256x256, .f32⟩
  | .local _ .vmem, ⟨27, _⟩ => ⟨S2048x256, .bf16⟩
  | .local _ .vmem, ⟨28, _⟩ => ⟨S2048x256, .bf16⟩
  | .local _ .vmem, ⟨29, _⟩ => ⟨S1024x2048, .bf16⟩
  | .local _ .vmem, ⟨30, _⟩ => ⟨S1024x2048, .bf16⟩
  | .local _ .vmem, ⟨31, _⟩ => ⟨S2048x256, .bf16⟩
  | .local _ .vmem, ⟨32, _⟩ => ⟨S2048x256, .bf16⟩
  | .local _ .vmem, ⟨33, _⟩ => ⟨S1024x256, .f32⟩
  | .local _ .vmem, ⟨34, _⟩ => ⟨S1024x256, .f32⟩
  | .local _ .vmem, ⟨35, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_scratch0 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg2_1 : Ref sig .tc := ⟨.vmem, 34, rfl⟩
abbrev cc5_scratch0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem1_1 : DmaSem sig := 30
abbrev cc5_sem2_0 : DmaSem sig := 31
abbrev cc5_sem2_1 : DmaSem sig := 32

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 4], ![false, false]⟩

def k3_cond2 (i : grid3.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2048x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨2, ![8, 4], ![false, false]⟩

def k5_cond2 (i : grid5.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S2048x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

class Facts₀ : Prop where
  bcast_S8192_S8192x1_0 : S8192.BroadcastsInDim S8192x1 (![0] : Fin 1 → Fin S8192x1.rank)
  bcast_S15_S1x15_1 : S15.BroadcastsInDim S1x15 (![1] : Fin 1 → Fin S1x15.rank)
  bcast_S8192x1_S8192x15_0_1 : S8192x1.BroadcastsInDim S8192x15 (![0, 1] : Fin 2 → Fin S8192x15.rank)
  bcast_S1x15_S8192x15_0_1 : S1x15.BroadcastsInDim S8192x15 (![0, 1] : Fin 2 → Fin S8192x15.rank)
  reducesTo_S8192x15_S8192_d1 : S8192x15.ReducesTo [1] S8192
  h_S_ : 0 < S_.numel
  bcast_S_S8192 : S_.BroadcastsInDim S8192 (![] : Fin 0 → Fin S8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  bitsLt_bf16_f32 : FTy.bits .bf16 < FTy.bits .f32
  transposes_S256x256_S256x256_1_0 : S256x256.Transposes [1, 0] S256x256
  inb_S2048x256_S2048x256_0_0 : ∀ a, (![0, 0] : Fin 2 → Nat) a + S2048x256.size a ≤ S2048x256.size a
  h_S2048x256 : 0 < S2048x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S2048x256_S2048x256_0_0 : (Rect.unit (s := S2048x256) ![0, 0] S2048x256.size inb_S2048x256_S2048x256_0_0).PackedRows (EltTy.packing .bf16)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  shapeCasts_S2048x256_S2048x256 : S2048x256.ShapeCasts S2048x256
  dot_S2048x256_S256x256_S2048x256_1_0_0_1_n_n_wf : DotDims.WF S2048x256 S256x256 S2048x256 [1] [0] [0] [1] [] []
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .bf16 = 32 ∨ (Rect.block (s := S8192x256) S2048x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .bf16 = 32 ∨ (Rect.block (s := S8192x8192) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S8192x256.size a
  hwx1_1 : ∀ i : grid1.Coords, EltTy.bits .bf16 = 32 ∨ (Rect.block (s := S8192x256) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .f32 = 32 ∨ (Rect.block (s := S8192x256) S1024x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S8192x256.size a
  hwx2_0 : ∀ i : grid2.Coords, EltTy.bits .f32 = 32 ∨ (Rect.block (s := S8192x256) S2048x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x256.size a ≤ S8192x256.size a
  hwx2_2 : ∀ i : grid2.Coords, EltTy.bits .bf16 = 32 ∨ (Rect.block (s := S8192x256) S2048x256.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S8192x8192.size a
  hwx3_0 : ∀ i : grid3.Coords, EltTy.bits .bf16 = 32 ∨ (Rect.block (s := S8192x8192) S1024x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S8192x256.size a
  hwx3_1 : ∀ i : grid3.Coords, EltTy.bits .bf16 = 32 ∨ (Rect.block (s := S8192x256) S2048x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x256.size a ≤ S8192x256.size a
  hwx3_2 : ∀ i : grid3.Coords, EltTy.bits .f32 = 32 ∨ (Rect.block (s := S8192x256) S1024x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x256.size a ≤ S8192x256.size a
  hwx4_0 : ∀ i : grid4.Coords, EltTy.bits .f32 = 32 ∨ (Rect.block (s := S8192x256) S2048x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x256.size a ≤ S8192x256.size a
  hwx4_2 : ∀ i : grid4.Coords, EltTy.bits .bf16 = 32 ∨ (Rect.block (s := S8192x256) S2048x256.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x2048.size a ≤ S8192x8192.size a
  hwx5_0 : ∀ i : grid5.Coords, EltTy.bits .bf16 = 32 ∨ (Rect.block (s := S8192x8192) S1024x2048.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x256.size a ≤ S8192x256.size a
  hwx5_1 : ∀ i : grid5.Coords, EltTy.bits .bf16 = 32 ∨ (Rect.block (s := S8192x256) S2048x256.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x256.size a ≤ S8192x256.size a
  hwx5_2 : ∀ i : grid5.Coords, EltTy.bits .f32 = 32 ∨ (Rect.block (s := S8192x256) S1024x256.size (cc5_transform_2 i) (hinb5_2 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v26) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S2048x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v23) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S2048x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29) S1024x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v29) S2048x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v31) S2048x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v23) S1024x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v31) S2048x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v32) S1024x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S256x256 : Shape := ⟨2, ![256, 256]⟩
abbrev S15 : Shape := ⟨1, ![15]⟩
abbrev S8192 : Shape := ⟨1, ![8192]⟩
abbrev S8192x1 : Shape := ⟨2, ![8192, 1]⟩
abbrev S1x15 : Shape := ⟨2, ![1, 15]⟩
abbrev S8192x15 : Shape := ⟨2, ![8192, 15]⟩
abbrev S_ : Shape := ⟨0, ![]⟩
abbrev S1x8192 : Shape := ⟨2, ![1, 8192]⟩
abbrev S8192x8192 : Shape := ⟨2, ![8192, 8192]⟩

abbrev nBuf : Space → Nat
  | .hbm => 55
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S15, .i32⟩
  | .hbm, ⟨5, _⟩ => ⟨S8192, .i32⟩
  | .hbm, ⟨6, _⟩ => ⟨S8192x1, .i32⟩
  | .hbm, ⟨7, _⟩ => ⟨S1x15, .i32⟩
  | .hbm, ⟨8, _⟩ => ⟨S8192x15, .i32⟩
  | .hbm, ⟨9, _⟩ => ⟨S8192x15, .i32⟩
  | .hbm, ⟨10, _⟩ => ⟨S8192x15, .i1⟩
  | .hbm, ⟨11, _⟩ => ⟨S_, .i1⟩
  | .hbm, ⟨12, _⟩ => ⟨S8192, .i1⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S8192, .i1⟩
  | .hbm, ⟨17, _⟩ => ⟨S8192, .i1⟩
  | .hbm, ⟨18, _⟩ => ⟨S8192x1, .i1⟩
  | .hbm, ⟨19, _⟩ => ⟨S1x8192, .i1⟩
  | .hbm, ⟨20, _⟩ => ⟨S8192x8192, .i1⟩
  | .hbm, ⟨21, _⟩ => ⟨S8192x8192, .i1⟩
  | .hbm, ⟨22, _⟩ => ⟨S8192x8192, .i1⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192, .f32⟩
  | .hbm, ⟨31, _⟩ => ⟨S8192x1, .f32⟩
  | .hbm, ⟨32, _⟩ => ⟨S8192x8192, .f32⟩
  | .hbm, ⟨33, _⟩ => ⟨S8192x8192, .f32⟩
  | .hbm, ⟨34, _⟩ => ⟨S1x8192, .f32⟩
  | .hbm, ⟨35, _⟩ => ⟨S8192x8192, .f32⟩
  | .hbm, ⟨36, _⟩ => ⟨S8192x8192, .f32⟩
  | .hbm, ⟨37, _⟩ => ⟨S256x256, .f32⟩
  | .hbm, ⟨38, _⟩ => ⟨S8192x256, .f32⟩
  | .hbm, ⟨39, _⟩ => ⟨S8192x256, .f32⟩
  | .hbm, ⟨40, _⟩ => ⟨S_, .f32⟩
  | .hbm, ⟨41, _⟩ => ⟨S8192x256, .f32⟩
  | .hbm, ⟨42, _⟩ => ⟨S8192x256, .f32⟩
  | .hbm, ⟨43, _⟩ => ⟨S256x256, .f32⟩
  | .hbm, ⟨44, _⟩ => ⟨S8192x256, .f32⟩
  | .hbm, ⟨45, _⟩ => ⟨S8192x256, .f32⟩
  | .hbm, ⟨46, _⟩ => ⟨S_, .f32⟩
  | .hbm, ⟨47, _⟩ => ⟨S8192x256, .f32⟩
  | .hbm, ⟨48, _⟩ => ⟨S8192x256, .f32⟩
  | .hbm, ⟨49, _⟩ => ⟨S256x256, .f32⟩
  | .hbm, ⟨50, _⟩ => ⟨S8192x256, .f32⟩
  | .hbm, ⟨51, _⟩ => ⟨S8192x256, .f32⟩
  | .hbm, ⟨52, _⟩ => ⟨S_, .f32⟩
  | .hbm, ⟨53, _⟩ => ⟨S8192x256, .f32⟩
  | .hbm, ⟨54, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call1_cst : Ref sig .tc := ⟨.hbm, 40, rfl⟩
abbrev main_call1_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call2_cst : Ref sig .tc := ⟨.hbm, 46, rfl⟩
abbrev main_call2_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call3_cst : Ref sig .tc := ⟨.hbm, 52, rfl⟩
abbrev main_call3_v0 : Ref sig .tc := ⟨.hbm, 53, rfl⟩
abbrev main_v34 : Ref sig .tc := ⟨.hbm, 54, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S15_S1x15_1 : S15.BroadcastsInDim S1x15 (![1] : Fin 1 → Fin S1x15.rank)
  bcast_S8192x1_S8192x15_0_1 : S8192x1.BroadcastsInDim S8192x15 (![0, 1] : Fin 2 → Fin S8192x15.rank)
  bcast_S1x15_S8192x15_0_1 : S1x15.BroadcastsInDim S8192x15 (![0, 1] : Fin 2 → Fin S8192x15.rank)
  reducesTo_S8192x15_S8192_d1 : S8192x15.ReducesTo [1] S8192
  h_S_ : 0 < S_.numel
  bcast_S_S8192 : S_.BroadcastsInDim S8192 (![] : Fin 0 → Fin S8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  transposes_S256x256_S256x256_1_0 : S256x256.Transposes [1, 0] S256x256
  bcast_S_S8192x256 : S_.BroadcastsInDim S8192x256 (![] : Fin 0 → Fin S8192x256.rank)
  dot_S8192x256_S256x256_S8192x256_1_0_0_1_n_n_wf : DotDims.WF S8192x256 S256x256 S8192x256 [1] [0] [0] [1] [] []
  dot_S8192x8192_S8192x256_S8192x256_1_0_0_1_n_n_wf : DotDims.WF S8192x8192 S8192x256 S8192x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.KiLin0.lean ====
/-
  Region 0 of the program: one row block of the dense layer h = x · Wᵀ per grid point.

  The grid has four points; point t is handed rows [2048·t, 2048·(t+1)) of the activations (window 0, 2048 × 256), the whole
  transposed weight matrix (window 1, 256 × 256, the same block at every point) and writes rows [2048·t, 2048·(t+1)) of the
  result (window 2, 2048 × 256). The body reads both blocks, multiplies them into a zero accumulator and stores the product:
  what the result's block holds after the body is ONE function `blockOut` of the two input blocks, whatever the float values
  are. This file states that function, runs the body against it, and packages the region's proof data at an arbitrary
  valuation `V` of the buffers at the region's entry: the arrays at `V`, each input block kept, the output block at
  `blockOut` of the point's input blocks, nothing carried from point to point.
-/
import proofs.«124142_j80221399155047_1_alg».proof.Proof.Gen.KernelIdeal.Launch
import proofs.«124142_j80221399155047_1_alg».proof.Proof.Gen.KernelIdeal.Skeleton
import proofs.«124142_j80221399155047_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Lin0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole activation block, the whole weight block: the body reads and writes whole blocks only. -/
abbrev rowsRect : Rect S2048x256 := Rect.unit (s := S2048x256) ![0, 0] S2048x256.size inb_S2048x256_S2048x256_0_0
abbrev weightRect : Rect S256x256 := Rect.unit (s := S256x256) ![0, 0] S256x256.size inb_S256x256_S256x256_0_0

/-- What the body leaves in the result's block: the product of the row block with the weight block (the one store's value,
    laid over the whole block). -/
def blockOut (x0 : Vec F S2048x256 .f32) (x1 : Vec F S256x256 .f32) : Vec F S2048x256 .bf16 :=
  View.canon [⟨rowsRect, k0_pay1 (View.ld x0 rowsRect) (View.ld x1 weightRect)⟩]

/-- The one store covers the result's block. -/
theorem blockOut_cover (p0 : Vec F S2048x256 .bf16) (y : S2048x256.Idx) :
    ∃ pc ∈ ([⟨rowsRect, p0⟩] : List (View.Piece (Elt F) S2048x256 .bf16)), y ∈ pc.1.set :=
  View.cover_of_tiled [⟨rowsRect, p0⟩] S2048x256.size (by rfl) y

set_option maxHeartbeats 1000000 in
/-- The body on whole blocks: from the two input blocks at `x0`, `x1` and the result's block at anything, it runs to its
    return with the inputs as they were and the result's block at `blockOut x0 x1`. -/
theorem body_runs (c : Dev nD) (E : Set ℕ) (i : grid0.Coords) (arg1 : Memref sig .tc .vmem S2048x256 .f32) (harg1 : arg1.IsWhole)
    (arg2 : Memref sig .tc .vmem S256x256 .f32) (harg2 : arg2.IsWhole) (arg3 : Memref sig .tc .vmem S2048x256 .bf16) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (blockOut x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (blockOut_cover _)

/-- The region's proof data on core `c`: the arrays as the region finds them; after the body at point `t` each input's
    block in place and the result's block at `blockOut` of the point's input blocks; the invariant between points is the
    untouched rest (every other scoped buffer and the generator register); nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => blockOut (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = blockOut (iblk V c 0 t) (iblk V c 1 t) := by dsimp only [dat]

/-- The row block is in its buffer when the body runs (it is fetched at every point). -/
theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-- The weight block is in its buffer when the body runs: fetched at the first point, and its block index never moves. -/
theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: both input blocks are in their buffers, so the body's run applies; the rest passes through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (body_runs c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation (c : Dev nD) : BodyObligation (dat (F := F) V c) (defs₀ (F := F)) Variants.none () Set.univ := fun t => by
  rw [bigSep_W0, bigSep_W0]
  exact sound_body V c t

/-- The invariant is the untouched rest at every point. -/
theorem hin (c : Dev nD) : Pipeline.ΦA spec0 c ⊢ (dat V c).Φ 0 := .rfl
theorem hout (c : Dev nD) : (dat V c).Φ (Fin.last cfg0.N) ⊢ Pipeline.ΦA spec0 c := .rfl

end Cert.KernelIdeal.Lin0

end
-- ==== Proof.KiAgg1.lean ====
import proofs.«124142_j80221399155047_1_alg».proof.Proof.Gen.KernelIdeal.Launch
import proofs.«124142_j80221399155047_1_alg».proof.Proof.Gen.KernelIdeal.Skeleton
import proofs.«124142_j80221399155047_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The aggregation call (region 1): the frame half

One grid point of the aggregation multiplies a 1024×2048 block of the normalised adjacency by a
2048×256 block of the features and adds the product into an accumulator the kernel keeps between
points.  The grid is 8 row blocks by 4 column steps, walked row-major, so the position `t` has
column step `t % 4`: the accumulator is reset at step 0, and at step 3 its positive part is stored
into the output block.  This module states what the accumulator and the output block hold after
every point, and proves that the body, run on the buffers the pipeline hands it, leaves exactly that.
Everything is generic in the float model and in the buffer contents `V` the region is entered with.
-/

set_option maxRecDepth 16384

noncomputable section

namespace Cert.KernelIdeal.Agg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The column step and the two conditionals -/

/-- The body's first test: the second grid coordinate is 0 (the accumulator is reset). -/
abbrev resets (i : grid1.Coords) : Prop :=
  (Scalar.cmpi .ne (Scalar.extui (Scalar.cmpi .eq (BitVec.ofNat 32 (i 1).val) 0#32)) 0#32) = 1#1

/-- The body's second test: the second grid coordinate is 3 (the output block is stored). -/
abbrev emits (i : grid1.Coords) : Prop := k1_cond2 i = 1#1

/-- Row-major over 8 × 4, the position's column step is its remainder mod 4. -/
theorem resets_iff : ∀ t : Fin cfg1.N, resets (grid1.coords t) ↔ t.val % 4 = 0 :=
  (by decide +kernel : ∀ t : Fin grid1.N, resets (grid1.coords t) ↔ t.val % 4 = 0)

theorem emits_iff : ∀ t : Fin cfg1.N, emits (grid1.coords t) ↔ t.val % 4 = 3 :=
  (by decide +kernel : ∀ t : Fin grid1.N, emits (grid1.coords t) ↔ t.val % 4 = 3)

/-! ## When each window is in use -/

/-- Both input blocks are read at every point. -/
theorem inputs_live : ∀ t : Fin cfg1.N, cfg1.idle 0 (grid1.coords t) = false ∧ cfg1.idle 1 (grid1.coords t) = false := by
  decide +kernel

/-- Before the last column step the output block is neither stored nor written back. -/
theorem out_parked : ∀ t : Fin cfg1.N, t.val % 4 ≠ 3 → cfg1.idle 2 (grid1.coords t) = true ∧ (cfg1.win 2).flush t = false := by
  decide +kernel

/-- At the last column step it is stored. -/
theorem out_live : ∀ t : Fin cfg1.N, t.val % 4 = 3 → cfg1.idle 2 (grid1.coords t) = false := by
  decide +kernel

/-! ## The buffers the body is called on at position `t` -/

abbrev bufA (t : Fin cfg1.N) : Memref sig .tc .vmem S1024x2048 .bf16 := win1_0.stage (cfg1.slots t 0)
abbrev bufA_whole (t : Fin cfg1.N) : (bufA t).IsWhole := hstage1_0 ((cfg1.slots t 0).cast nbuf1_0)
abbrev bufH (t : Fin cfg1.N) : Memref sig .tc .vmem S2048x256 .bf16 := win1_1.stage (cfg1.slots t 1)
abbrev bufH_whole (t : Fin cfg1.N) : (bufH t).IsWhole := hstage1_1 ((cfg1.slots t 1).cast nbuf1_1)
abbrev bufO (t : Fin cfg1.N) : Memref sig .tc .vmem S1024x256 .f32 := win1_2.stage (cfg1.slots t 2)
abbrev bufO_whole (t : Fin cfg1.N) : (bufO t).IsWhole := hstage1_2 ((cfg1.slots t 2).cast nbuf1_2)
/-- The accumulator: a whole scoped buffer of the call's own. -/
abbrev accM : Memref sig .tc .vmem S1024x256 .f32 := Memref.whole cc1_scratch0

/-- What the region is handed on entry: the accumulator at some contents, every other scoped buffer
    that is no staging buffer of this call (carried along unopened), and the generator register. -/
theorem entry_eq (c : Dev nD) :
    (Pipeline.ΦA spec1 c : sProp 𝕄)
      = iprop(iprop(iprop((∃ d, owns (c : Thread nD τ) accM fullShare d)) ∗ Pipeline.scopedRestBut spec1 c [cc1_scratch0]) ∗ (∃ r, prngReg c r)) := by
  unfold Pipeline.ΦA; rw [scopedRest1_split]; simp only [accM, owns_whole]; try rfl

/-- Stores that cover a whole buffer leave it owned at their canonical reading, whatever it held. -/
theorem owns_canon (c : Dev nD) {s : Shape} {e : EltTy} (M : Memref sig .tc .vmem s e) (L : List (View.Piece (Elt F) s e))
    (hL : ∀ y, ∃ pc ∈ L, y ∈ pc.1.set) :
    (iprop(∃ f, M.view.loc (c : Thread nD τ) ↦[M.view.set]{fullShare} M.view.writes (Elt F) f L) : sProp 𝕄)
      ⊢ owns (c : Thread nD τ) M fullShare (View.canon L) := by
  iintro ⟨%f, H⟩
  unfold owns; iexists _; isplitr
  swap; · iexact H
  ipureintro; exact View.read_writes_eq_canon _ _ _ hL

/-! ## The body's three runs

Each is stated on arbitrary whole buffers, the two input blocks at given contents; what the stores
leave is recorded as the list of pieces written (last store first), found by running the body. -/

set_option maxHeartbeats 1000000 in
/-- COLUMN STEP 0.  The accumulator, whatever it held, is overwritten by zero and then by zero plus
    this point's product; the output block is handed back as it came. -/
noncomputable def runReset (c : Dev nD) (i : grid1.Coords) (mA : Memref sig .tc .vmem S1024x2048 .bf16) (hA : mA.IsWhole) (mH : Memref sig .tc .vmem S2048x256 .bf16) (hH : mH.IsWhole) (mO : Memref sig .tc .vmem S1024x256 .f32) (hO : mO.IsWhole) (mS : Memref sig .tc .vmem S1024x256 .f32) (hS : mS.IsWhole) (h0 : resets i) (h3 : ¬emits i)
    (a : Vec F S1024x2048 .bf16) (h : Vec F S2048x256 .bf16) :
    { LS : List (View.Piece (Elt F) S1024x256 .f32) //
      ∀ (o : Vec F S1024x256 .f32) (E : Set ℕ) (K : PUnit → sProp 𝕄),
        iprop(owns (c : Thread nD τ) mA fullShare a ∗ owns (c : Thread nD τ) mH fullShare h ∗ owns (c : Thread nD τ) mO fullShare o ∗ (∃ d, owns (c : Thread nD τ) mS fullShare d)
            ∗ (iprop(owns (c : Thread nD τ) mA fullShare a ∗ owns (c : Thread nD τ) mH fullShare h ∗ owns (c : Thread nD τ) mO fullShare o
                ∗ (∃ f, mS.view.loc (c : Thread nD τ) ↦[mS.view.set]{fullShare} mS.view.writes (Elt F) f LS)) -∗ K ⟨⟩))
          ⊢ wp frame (wpE (defs₀ (F := F)) Variants.none c none) E (cc1__agg_kernel i mA hA mH hH mO hO mS hS) K } := by
  refine ⟨?_, fun o E K => ?run⟩
  case run =>
    simp only [cc1__agg_kernel_eq_skeleton]; unfold cc1__agg_kernel_skel
    unfold owns
    iintro ⟨⟨%fa, %ea, HA⟩, ⟨%fh, %eh, HH⟩, ⟨%fo, %eo, HO⟩, ⟨%d, %fs, -, HS⟩, Hk⟩
    obtain rfl := hA.eq_unread ea; obtain rfl := hH.eq_unread eh; obtain rfl := hO.eq_unread eo
    sl_exec (disch := first | exact h0 | exact h3)
    sl_step
    iapply Hk
    isplitl [HA]
    · iexists _; isplitr; · ipureintro; exact hA.read_unread _
      iexact HA
    isplitl [HH]
    · iexists _; isplitr; · ipureintro; exact hH.read_unread _
      iexact HH
    isplitl [HO]
    · iexists _; isplitr; · ipureintro; exact hO.read_unread _
      iexact HO
    iexists _; iexact HS

set_option maxHeartbeats 1000000 in
/-- COLUMN STEPS 1, 2.  The accumulator, at what the point before left, gains this point's product;
    the output block is handed back as it came. -/
noncomputable def runStep (c : Dev nD) (i : grid1.Coords) (mA : Memref sig .tc .vmem S1024x2048 .bf16) (hA : mA.IsWhole) (mH : Memref sig .tc .vmem S2048x256 .bf16) (hH : mH.IsWhole) (mO : Memref sig .tc .vmem S1024x256 .f32) (hO : mO.IsWhole) (mS : Memref sig .tc .vmem S1024x256 .f32) (hS : mS.IsWhole) (h0 : ¬resets i) (h3 : ¬emits i)
    (a : Vec F S1024x2048 .bf16) (h : Vec F S2048x256 .bf16) (s : Vec F S1024x256 .f32) :
    { LS : List (View.Piece (Elt F) S1024x256 .f32) //
      ∀ (o : Vec F S1024x256 .f32) (E : Set ℕ) (K : PUnit → sProp 𝕄),
        iprop(owns (c : Thread nD τ) mA fullShare a ∗ owns (c : Thread nD τ) mH fullShare h ∗ owns (c : Thread nD τ) mO fullShare o ∗ owns (c : Thread nD τ) mS fullShare s
            ∗ (iprop(owns (c : Thread nD τ) mA fullShare a ∗ owns (c : Thread nD τ) mH fullShare h ∗ owns (c : Thread nD τ) mO fullShare o
                ∗ (∃ f, mS.view.loc (c : Thread nD τ) ↦[mS.view.set]{fullShare} mS.view.writes (Elt F) f LS)) -∗ K ⟨⟩))
          ⊢ wp frame (wpE (defs₀ (F := F)) Variants.none c none) E (cc1__agg_kernel i mA hA mH hH mO hO mS hS) K } := by
  refine ⟨?_, fun o E K => ?run⟩
  case run =>
    simp only [cc1__agg_kernel_eq_skeleton]; unfold cc1__agg_kernel_skel
    unfold owns
    iintro ⟨⟨%fa, %ea, HA⟩, ⟨%fh, %eh, HH⟩, ⟨%fo, %eo, HO⟩, ⟨%fs, %es, HS⟩, Hk⟩
    obtain rfl := hA.eq_unread ea; obtain rfl := hH.eq_unread eh; obtain rfl := hO.eq_unread eo; obtain rfl := hS.eq_unread es
    sl_exec (disch := first | exact h0 | exact h3)
    sl_step
    iapply Hk
    isplitl [HA]
    · iexists _; isplitr; · ipureintro; exact hA.read_unread _
      iexact HA
    isplitl [HH]
    · iexists _; isplitr; · ipureintro; exact hH.read_unread _
      iexact HH
    isplitl [HO]
    · iexists _; isplitr; · ipureintro; exact hO.read_unread _
      iexact HO
    iexists _; iexact HS

set_option maxHeartbeats 1000000 in
/-- COLUMN STEP 3.  The accumulator gains this point's product, and its positive part is stored over
    the whole output block, whatever that held. -/
noncomputable def runLast (c : Dev nD) (i : grid1.Coords) (mA : Memref sig .tc .vmem S1024x2048 .bf16) (hA : mA.IsWhole) (mH : Memref sig .tc .vmem S2048x256 .bf16) (hH : mH.IsWhole) (mO : Memref sig .tc .vmem S1024x256 .f32) (hO : mO.IsWhole) (mS : Memref sig .tc .vmem S1024x256 .f32) (hS : mS.IsWhole) (h0 : ¬resets i) (h3 : emits i)
    (a : Vec F S1024x2048 .bf16) (h : Vec F S2048x256 .bf16) (s : Vec F S1024x256 .f32) :
    Σ' (LO : List (View.Piece (Elt F) S1024x256 .f32)), { LS : List (View.Piece (Elt F) S1024x256 .f32) //
      ∀ (E : Set ℕ) (K : PUnit → sProp 𝕄),
        iprop(owns (c : Thread nD τ) mA fullShare a ∗ owns (c : Thread nD τ) mH fullShare h ∗ (∃ d, owns (c : Thread nD τ) mO fullShare d) ∗ owns (c : Thread nD τ) mS fullShare s
            ∗ (iprop(owns (c : Thread nD τ) mA fullShare a ∗ owns (c : Thread nD τ) mH fullShare h
                ∗ (∃ f, mO.view.loc (c : Thread nD τ) ↦[mO.view.set]{fullShare} mO.view.writes (Elt F) f LO)
                ∗ (∃ f, mS.view.loc (c : Thread nD τ) ↦[mS.view.set]{fullShare} mS.view.writes (Elt F) f LS)) -∗ K ⟨⟩))
          ⊢ wp frame (wpE (defs₀ (F := F)) Variants.none c none) E (cc1__agg_kernel i mA hA mH hH mO hO mS hS) K } := by
  refine ⟨?_, ?_, fun E K => ?run⟩
  case run =>
    simp only [cc1__agg_kernel_eq_skeleton]; unfold cc1__agg_kernel_skel
    unfold owns
    iintro ⟨⟨%fa, %ea, HA⟩, ⟨%fh, %eh, HH⟩, ⟨%d, %fo, -, HO⟩, ⟨%fs, %es, HS⟩, Hk⟩
    obtain rfl := hA.eq_unread ea; obtain rfl := hH.eq_unread eh; obtain rfl := hS.eq_unread es
    sl_exec (disch := first | exact h0 | exact h3)
    sl_step
    iapply Hk
    isplitl [HA]
    · iexists _; isplitr; · ipureintro; exact hA.read_unread _
      iexact HA
    isplitl [HH]
    · iexists _; isplitr; · ipureintro; exact hH.read_unread _
      iexact HH
    isplitl [HO]; · iexists _; iexact HO
    iexists _; iexact HS

/-! ## The stores cover, and what they amount to -/

theorem reset_covers (c : Dev nD) (i : grid1.Coords) (mA : Memref sig .tc .vmem S1024x2048 .bf16) (hA : mA.IsWhole) (mH : Memref sig .tc .vmem S2048x256 .bf16) (hH : mH.IsWhole) (mO : Memref sig .tc .vmem S1024x256 .f32) (hO : mO.IsWhole) (mS : Memref sig .tc .vmem S1024x256 .f32) (hS : mS.IsWhole) (h0 : resets i) (h3 : ¬emits i)
    (a : Vec F S1024x2048 .bf16) (h : Vec F S2048x256 .bf16) (y : S1024x256.Idx) :
    ∃ pc ∈ (runReset c i mA hA mH hH mO hO mS hS h0 h3 a h).1, y ∈ pc.1.set :=
  View.cover_of_tiledL (runReset c i mA hA mH hH mO hO mS hS h0 h3 a h).1 S1024x256.size (by sl_kernel_rfl) y

theorem step_covers (c : Dev nD) (i : grid1.Coords) (mA : Memref sig .tc .vmem S1024x2048 .bf16) (hA : mA.IsWhole) (mH : Memref sig .tc .vmem S2048x256 .bf16) (hH : mH.IsWhole) (mO : Memref sig .tc .vmem S1024x256 .f32) (hO : mO.IsWhole) (mS : Memref sig .tc .vmem S1024x256 .f32) (hS : mS.IsWhole) (h0 : ¬resets i) (h3 : ¬emits i)
    (a : Vec F S1024x2048 .bf16) (h : Vec F S2048x256 .bf16) (s : Vec F S1024x256 .f32) (y : S1024x256.Idx) :
    ∃ pc ∈ (runStep c i mA hA mH hH mO hO mS hS h0 h3 a h s).1, y ∈ pc.1.set :=
  View.cover_of_tiledL (runStep c i mA hA mH hH mO hO mS hS h0 h3 a h s).1 S1024x256.size (by sl_kernel_rfl) y

theorem last_covers_out (c : Dev nD) (i : grid1.Coords) (mA : Memref sig .tc .vmem S1024x2048 .bf16) (hA : mA.IsWhole) (mH : Memref sig .tc .vmem S2048x256 .bf16) (hH : mH.IsWhole) (mO : Memref sig .tc .vmem S1024x256 .f32) (hO : mO.IsWhole) (mS : Memref sig .tc .vmem S1024x256 .f32) (hS : mS.IsWhole) (h0 : ¬resets i) (h3 : emits i)
    (a : Vec F S1024x2048 .bf16) (h : Vec F S2048x256 .bf16) (s : Vec F S1024x256 .f32) (y : S1024x256.Idx) :
    ∃ pc ∈ (runLast c i mA hA mH hH mO hO mS hS h0 h3 a h s).1, y ∈ pc.1.set :=
  View.cover_of_tiledL (runLast c i mA hA mH hH mO hO mS hS h0 h3 a h s).1 S1024x256.size (by sl_kernel_rfl) y

theorem last_covers_acc (c : Dev nD) (i : grid1.Coords) (mA : Memref sig .tc .vmem S1024x2048 .bf16) (hA : mA.IsWhole) (mH : Memref sig .tc .vmem S2048x256 .bf16) (hH : mH.IsWhole) (mO : Memref sig .tc .vmem S1024x256 .f32) (hO : mO.IsWhole) (mS : Memref sig .tc .vmem S1024x256 .f32) (hS : mS.IsWhole) (h0 : ¬resets i) (h3 : emits i)
    (a : Vec F S1024x2048 .bf16) (h : Vec F S2048x256 .bf16) (s : Vec F S1024x256 .f32) (y : S1024x256.Idx) :
    ∃ pc ∈ (runLast c i mA hA mH hH mO hO mS hS h0 h3 a h s).2.1, y ∈ pc.1.set :=
  View.cover_of_tiledL (runLast c i mA hA mH hH mO hO mS hS h0 h3 a h s).2.1 S1024x256.size (by sl_kernel_rfl) y

theorem hz : (![0, 0] : Fin 2 → Nat) = fun _ => 0 := funext fun k => by fin_cases k <;> rfl

/-- Step 0 leaves zero plus the product: the second store covers the first and reads it back. -/
theorem reset_value (c : Dev nD) (i : grid1.Coords) (mA : Memref sig .tc .vmem S1024x2048 .bf16) (hA : mA.IsWhole) (mH : Memref sig .tc .vmem S2048x256 .bf16) (hH : mH.IsWhole) (mO : Memref sig .tc .vmem S1024x256 .f32) (hO : mO.IsWhole) (mS : Memref sig .tc .vmem S1024x256 .f32) (hS : mS.IsWhole) (h0 : resets i) (h3 : ¬emits i)
    (a : Vec F S1024x2048 .bf16) (h : Vec F S2048x256 .bf16) :
    View.canon (runReset c i mA hA mH hH mO hO mS hS h0 h3 a h).1 = k1_pay2 (k1_pay1 (F := F)) a h := by
  unfold runReset
  dsimp only
  sl_unfold_words
  rw [View.canon_cons_unit_zero (S := S1024x256) hz, View.readCov_unit_zero (S := S1024x256) _ hz]
  simp only [View.readAt_eq_ld, hA.read_unread, hH.read_unread, View.ld_unit_zero (S := S1024x2048) hz, View.ld_unit_zero (S := S2048x256) hz]

/-- Steps 1, 2 leave what the accumulator held plus the product. -/
theorem step_value (c : Dev nD) (i : grid1.Coords) (mA : Memref sig .tc .vmem S1024x2048 .bf16) (hA : mA.IsWhole) (mH : Memref sig .tc .vmem S2048x256 .bf16) (hH : mH.IsWhole) (mO : Memref sig .tc .vmem S1024x256 .f32) (hO : mO.IsWhole) (mS : Memref sig .tc .vmem S1024x256 .f32) (hS : mS.IsWhole) (h0 : ¬resets i) (h3 : ¬emits i)
    (a : Vec F S1024x2048 .bf16) (h : Vec F S2048x256 .bf16) (s : Vec F S1024x256 .f32) :
    View.canon (runStep c i mA hA mH hH mO hO mS hS h0 h3 a h s).1 = k1_pay2 s a h := by
  unfold runStep
  dsimp only
  sl_unfold_words
  rw [View.canon_unit_zero hz]
  simp only [View.readAt_eq_ld, hA.read_unread, hH.read_unread, hS.read_unread, View.ld_unit_zero (S := S1024x2048) hz, View.ld_unit_zero (S := S2048x256) hz, View.ld_unit_zero (S := S1024x256) hz]

/-- So does step 3, in the accumulator; -/
theorem last_value_acc (c : Dev nD) (i : grid1.Coords) (mA : Memref sig .tc .vmem S1024x2048 .bf16) (hA : mA.IsWhole) (mH : Memref sig .tc .vmem S2048x256 .bf16) (hH : mH.IsWhole) (mO : Memref sig .tc .vmem S1024x256 .f32) (hO : mO.IsWhole) (mS : Memref sig .tc .vmem S1024x256 .f32) (hS : mS.IsWhole) (h0 : ¬resets i) (h3 : emits i)
    (a : Vec F S1024x2048 .bf16) (h : Vec F S2048x256 .bf16) (s : Vec F S1024x256 .f32) :
    View.canon (runLast c i mA hA mH hH mO hO mS hS h0 h3 a h s).2.1 = k1_pay2 s a h := by
  unfold runLast
  dsimp only
  sl_unfold_words
  rw [View.canon_unit_zero hz]
  simp only [View.readAt_eq_ld, hA.read_unread, hH.read_unread, hS.read_unread, View.ld_unit_zero (S := S1024x2048) hz, View.ld_unit_zero (S := S2048x256) hz, View.ld_unit_zero (S := S1024x256) hz]

/-- and in the output block it leaves the positive part of that. -/
theorem last_value_out (c : Dev nD) (i : grid1.Coords) (mA : Memref sig .tc .vmem S1024x2048 .bf16) (hA : mA.IsWhole) (mH : Memref sig .tc .vmem S2048x256 .bf16) (hH : mH.IsWhole) (mO : Memref sig .tc .vmem S1024x256 .f32) (hO : mO.IsWhole) (mS : Memref sig .tc .vmem S1024x256 .f32) (hS : mS.IsWhole) (h0 : ¬resets i) (h3 : emits i)
    (a : Vec F S1024x2048 .bf16) (h : Vec F S2048x256 .bf16) (s : Vec F S1024x256 .f32) :
    View.canon (runLast c i mA hA mH hH mO hO mS hS h0 h3 a h s).1 = k1_pay3 (k1_pay2 s a h) := by
  unfold runLast
  dsimp only
  sl_unfold_words
  rw [View.canon_unit_zero hz]
  simp only [View.readAt_eq_ld, hA.read_unread, hH.read_unread, hS.read_unread, View.ld_unit_zero (S := S1024x2048) hz, View.ld_unit_zero (S := S2048x256) hz, View.ld_unit_zero (S := S1024x256) hz, View.readCov_unit_zero (S := S1024x256) _ hz]

/-! ## The runs at a grid position -/

/-- The step-0 run on position `t`'s buffers. -/
abbrev resetAt (c : Dev nD) (t : Fin cfg1.N) (h0 : t.val % 4 = 0) (a : Vec F S1024x2048 .bf16) (h : Vec F S2048x256 .bf16) :=
  runReset c (grid1.coords t) (bufA t) (bufA_whole t) (bufH t) (bufH_whole t) (bufO t) (bufO_whole t) accM (Memref.isWhole_whole _)
    ((resets_iff t).mpr h0) (fun e => absurd ((emits_iff t).mp e) (by omega)) a h

/-- The step-1/2 run on position `t`'s buffers. -/
abbrev stepAt (c : Dev nD) (t : Fin cfg1.N) (h0 : t.val % 4 ≠ 0) (h3 : t.val % 4 ≠ 3) (a : Vec F S1024x2048 .bf16) (h : Vec F S2048x256 .bf16) (s : Vec F S1024x256 .f32) :=
  runStep c (grid1.coords t) (bufA t) (bufA_whole t) (bufH t) (bufH_whole t) (bufO t) (bufO_whole t) accM (Memref.isWhole_whole _)
    (fun e => h0 ((resets_iff t).mp e)) (fun e => h3 ((emits_iff t).mp e)) a h s

/-- The step-3 run on position `t`'s buffers. -/
abbrev lastAt (c : Dev nD) (t : Fin cfg1.N) (h3 : t.val % 4 = 3) (a : Vec F S1024x2048 .bf16) (h : Vec F S2048x256 .bf16) (s : Vec F S1024x256 .f32) :=
  runLast c (grid1.coords t) (bufA t) (bufA_whole t) (bufH t) (bufH_whole t) (bufO t) (bufO_whole t) accM (Memref.isWhole_whole _)
    (fun e => absurd ((resets_iff t).mp e) (by omega)) ((emits_iff t).mpr h3) a h s

section Region
-- the TensorCore's buffer contents when the region is entered
variable (V : (c : Dev nD) → (b : Ref sig .tc) → Buf (Elt F) ((c : Thread nD τ).loc b))

/-! ## The windows' blocks -/

/-- Window `w`'s block at position `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The accumulation, point by point -/

/-- What the output block's staging buffer and the accumulator hold after the body at position `n`.
    The column step picks the run; steps 1–3 start from the accumulator the point before left.  Where
    the output block is not stored its component is a stand-in (the zero block) nothing consults. -/
def outsAt (c : Dev nD) : (n : ℕ) → n < cfg1.N → Vec F S1024x256 .f32 × Vec F S1024x256 .f32
  | 0, hn => (k1_pay1, View.canon (resetAt c ⟨0, hn⟩ (Nat.zero_mod 4) (iblk V c 0 ⟨0, hn⟩) (iblk V c 1 ⟨0, hn⟩)).1)
  | n + 1, hn =>
    if h0 : (n + 1) % 4 = 0 then
      (k1_pay1, View.canon (resetAt c ⟨n + 1, hn⟩ h0 (iblk V c 0 ⟨n + 1, hn⟩) (iblk V c 1 ⟨n + 1, hn⟩)).1)
    else if h3 : (n + 1) % 4 = 3 then
      (View.canon (lastAt c ⟨n + 1, hn⟩ h3 (iblk V c 0 ⟨n + 1, hn⟩) (iblk V c 1 ⟨n + 1, hn⟩) (outsAt c n (Nat.lt_of_succ_lt hn)).2).1,
       View.canon (lastAt c ⟨n + 1, hn⟩ h3 (iblk V c 0 ⟨n + 1, hn⟩) (iblk V c 1 ⟨n + 1, hn⟩) (outsAt c n (Nat.lt_of_succ_lt hn)).2).2.1)
    else
      (k1_pay1, View.canon (stepAt c ⟨n + 1, hn⟩ h0 h3 (iblk V c 0 ⟨n + 1, hn⟩) (iblk V c 1 ⟨n + 1, hn⟩) (outsAt c n (Nat.lt_of_succ_lt hn)).2).1)

theorem outsAt_reset (c : Dev nD) (t : Fin cfg1.N) (h0 : t.val % 4 = 0) :
    outsAt V c t.val t.isLt = (k1_pay1, View.canon (resetAt c t h0 (iblk V c 0 t) (iblk V c 1 t)).1) := by
  obtain ⟨n, hn⟩ := t
  cases n with
  | zero => rfl
  | succ n => exact (dif_pos h0).trans rfl

theorem outsAt_step (c : Dev nD) (t : Fin cfg1.N) (h0 : t.val % 4 ≠ 0) (h3 : t.val % 4 ≠ 3) :
    outsAt V c t.val t.isLt = (k1_pay1, View.canon (stepAt c t h0 h3 (iblk V c 0 t) (iblk V c 1 t) (outsAt V c (t.val - 1) (Nat.lt_of_le_of_lt (Nat.sub_le _ _) t.isLt)).2).1) := by
  obtain ⟨n, hn⟩ := t
  cases n with
  | zero => exact absurd (Nat.zero_mod 4) h0
  | succ n => exact (dif_neg h0).trans ((dif_neg h3).trans rfl)

theorem outsAt_last (c : Dev nD) (t : Fin cfg1.N) (h3 : t.val % 4 = 3) :
    outsAt V c t.val t.isLt =
      (View.canon (lastAt c t h3 (iblk V c 0 t) (iblk V c 1 t) (outsAt V c (t.val - 1) (Nat.lt_of_le_of_lt (Nat.sub_le _ _) t.isLt)).2).1,
       View.canon (lastAt c t h3 (iblk V c 0 t) (iblk V c 1 t) (outsAt V c (t.val - 1) (Nat.lt_of_le_of_lt (Nat.sub_le _ _) t.isLt)).2).2.1) := by
  obtain ⟨n, hn⟩ := t
  cases n with
  | zero => exact absurd h3 (by decide : ¬(0 : ℕ) % 4 = 3)
  | succ n =>
    have h3' : (n + 1) % 4 = 3 := h3
    exact (dif_neg (show ¬(n + 1) % 4 = 0 by omega)).trans ((dif_pos h3').trans rfl)

/-! ## The accumulation in closed form -/

/-- At a reset point the accumulator ends at zero plus this point's product. -/
theorem scratch_first (c : Dev nD) (t : Fin cfg1.N) (h : t.val % 4 = 0) :
    (outsAt V c t.val t.isLt).2 = k1_pay2 (k1_pay1 (F := F)) (iblk V c 0 t) (iblk V c 1 t) := by
  rw [outsAt_reset V c t h]; dsimp only
  exact reset_value c (grid1.coords t) (bufA t) (bufA_whole t) (bufH t) (bufH_whole t) (bufO t) (bufO_whole t) accM (Memref.isWhole_whole _) _ _ (iblk V c 0 t) (iblk V c 1 t)

/-- At any other point the accumulator gains this point's product over what the point before left. -/
theorem scratch_next (c : Dev nD) (t : Fin cfg1.N) (h : t.val % 4 ≠ 0) :
    (outsAt V c t.val t.isLt).2 = k1_pay2 (outsAt V c (t.val - 1) (Nat.lt_of_le_of_lt (Nat.sub_le _ _) t.isLt)).2 (iblk V c 0 t) (iblk V c 1 t) := by
  by_cases h3 : t.val % 4 = 3
  · rw [outsAt_last V c t h3]; dsimp only
    exact last_value_acc c (grid1.coords t) (bufA t) (bufA_whole t) (bufH t) (bufH_whole t) (bufO t) (bufO_whole t) accM (Memref.isWhole_whole _) _ _ (iblk V c 0 t) (iblk V c 1 t) (outsAt V c (t.val - 1) (Nat.lt_of_le_of_lt (Nat.sub_le _ _) t.isLt)).2
  · rw [outsAt_step V c t h h3]; dsimp only
    exact step_value c (grid1.coords t) (bufA t) (bufA_whole t) (bufH t) (bufH_whole t) (bufO t) (bufO_whole t) accM (Memref.isWhole_whole _) _ _ (iblk V c 0 t) (iblk V c 1 t) (outsAt V c (t.val - 1) (Nat.lt_of_le_of_lt (Nat.sub_le _ _) t.isLt)).2

/-- At a last step the output block is the positive part of the accumulator. -/
theorem out_last (c : Dev nD) (t : Fin cfg1.N) (h : t.val % 4 = 3) :
    (outsAt V c t.val t.isLt).1 = k1_pay3 (outsAt V c t.val t.isLt).2 := by
  rw [outsAt_last V c t h]; dsimp only
  exact (last_value_out c (grid1.coords t) (bufA t) (bufA_whole t) (bufH t) (bufH_whole t) (bufO t) (bufO_whole t) accM (Memref.isWhole_whole _) _ _ (iblk V c 0 t) (iblk V c 1 t) (outsAt V c (t.val - 1) (Nat.lt_of_le_of_lt (Nat.sub_le _ _) t.isLt)).2).trans
    (congrArg k1_pay3 (last_value_acc c (grid1.coords t) (bufA t) (bufA_whole t) (bufH t) (bufH_whole t) (bufO t) (bufO_whole t) accM (Memref.isWhole_whole _) _ _ (iblk V c 0 t) (iblk V c 1 t) (outsAt V c (t.val - 1) (Nat.lt_of_le_of_lt (Nat.sub_le _ _) t.isLt)).2).symm)

/-! ## The region invariant -/

/-- Before position `n`: on entry, what the launch hands over (the accumulator at anything);
    afterwards the accumulator at what the point before left, the other scoped buffers carried along
    unopened, and the generator register. -/
def PhiS (c : Dev nD) : (n : ℕ) → n ≤ cfg1.N → sProp 𝕄
  | 0, _ => Pipeline.ΦA spec1 c
  | n + 1, hn => iprop(iprop(owns (c : Thread nD τ) accM fullShare ((outsAt V c n hn).2) ∗ Pipeline.scopedRestBut spec1 c [cc1_scratch0]) ∗ (∃ r, prngReg c r))

/-- After the first point the accumulator's contents are known. -/
theorem PhiS_pos (c : Dev nD) (n : ℕ) (h : n ≤ cfg1.N) (hz : n ≠ 0) :
    PhiS V c n h = iprop(iprop(owns (c : Thread nD τ) accM fullShare ((outsAt V c (n - 1) (by omega)).2) ∗ Pipeline.scopedRestBut spec1 c [cc1_scratch0]) ∗ (∃ r, prngReg c r)) := by
  cases n with
  | zero => exact absurd rfl hz
  | succ n => rfl

/-- At any position the invariant lets the accumulator's contents be forgotten. -/
theorem PhiS_forget (c : Dev nD) (n : ℕ) (h : n ≤ cfg1.N) :
    PhiS V c n h ⊢ iprop(iprop((∃ d, owns (c : Thread nD τ) accM fullShare d) ∗ Pipeline.scopedRestBut spec1 c [cc1_scratch0]) ∗ (∃ r, prngReg c r)) := by
  cases n with
  | zero => rw [show PhiS V c 0 h = Pipeline.ΦA spec1 c from rfl, entry_eq]
  | succ n =>
    rw [PhiS_pos V c _ h (Nat.succ_ne_zero n)]
    iintro ⟨⟨HS, Hr⟩, Hg⟩
    isplitl [HS Hr]
    · isplitl [HS]; · iexists _; iexact HS
      iexact Hr
    iexact Hg

/-! ## The proof data -/

/-- The region's proof data on core `c`: the arrays as the region finds them; after the body each
    input's buffer at its block and the output's at `outsAt`; the invariant `PhiS`; full shares,
    nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = (outsAt V c t.val t.isLt).1 := by dsimp only [dat]

/-- The invariant as a point starts, -/
theorem Phi_start (c : Dev nD) (t : Fin cfg1.N) : (dat V c).Φ t.castSucc = PhiS V c t.val (Nat.le_of_lt t.isLt) := by
  dsimp only [dat]; simp only [Fin.coe_castSucc]

/-- and as it ends. -/
theorem Phi_end (c : Dev nD) (t : Fin cfg1.N) :
    (dat V c).Φ t.succ = iprop(iprop(owns (c : Thread nD τ) accM fullShare ((outsAt V c t.val t.isLt).2) ∗ Pipeline.scopedRestBut spec1 c [cc1_scratch0]) ∗ (∃ r, prngReg c r)) := rfl

/-- An input window's buffer holds its block at every point: it is fetched at every point. -/
theorem before_A (c : Dev nD) (t : Fin cfg1.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

theorem before_H (c : Dev nD) (t : Fin cfg1.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-! ## What the body must hand back, window by window -/

theorem leaves_A (c : Dev nD) (t : Fin cfg1.N) :
    (dat V c).leavesExact 0 t = owns (c : Thread nD τ) (bufA t) fullShare (iblk V c 0 t) := by
  unfold Dat.leavesExact; rw [(inputs_live t).1, after_0]

theorem leaves_H (c : Dev nD) (t : Fin cfg1.N) :
    (dat V c).leavesExact 1 t = owns (c : Thread nD τ) (bufH t) fullShare (iblk V c 1 t) := by
  unfold Dat.leavesExact; rw [(inputs_live t).2, after_1]

theorem leaves_O_parked (c : Dev nD) (t : Fin cfg1.N) (h3 : t.val % 4 ≠ 3) :
    (dat V c).leavesExact 2 t = iprop(∃ d, owns (c : Thread nD τ) (bufO t) fullShare ((dat V c).before 2 t d)) :=
  Dat.leavesExact_idle (dat V c) 2 t (out_parked t h3).1 (out_parked t h3).2

theorem leaves_O_stored (c : Dev nD) (t : Fin cfg1.N) (h3 : t.val % 4 = 3) :
    (dat V c).leavesExact 2 t = owns (c : Thread nD τ) (bufO t) fullShare ((outsAt V c t.val t.isLt).1) := by
  unfold Dat.leavesExact; rw [out_live t h3, after_2]

/-! ## The body obligation -/

/-- What the body is called with at position `t`, -/
def bodyPre (c : Dev nD) (t : Fin cfg1.N) : sProp 𝕄 :=
  iprop((dat V c).Φ t.castSucc ∗ (dat V c).owesAt () t.castSucc
    ∗ (∃ d, owns (c : Thread nD τ) (bufA t) fullShare ((dat V c).before 0 t d))
    ∗ (∃ d, owns (c : Thread nD τ) (bufH t) fullShare ((dat V c).before 1 t d))
    ∗ (∃ d, owns (c : Thread nD τ) (bufO t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 1600000 in
/-- Column step 0: the accumulator is taken at anything and handed back at zero plus the product. -/
theorem body_reset (c : Dev nD) (t : Fin cfg1.N) (h0 : t.val % 4 = 0) : bodyPre V c t ⊢ wp frame (wpE (defs₀ (F := F)) Variants.none c none) Set.univ (bodyAt1 t) (fun _ => bodyPost V c t) := by
  have h3 : t.val % 4 ≠ 3 := by omega
  unfold bodyPre bodyPost bodyAt1
  simp only [before_A, before_H]
  rw [leaves_A, leaves_H, leaves_O_parked V c t h3, Phi_end, outsAt_reset V c t h0, Phi_start]
  rw [show (dat V c).owesAt () t.succ = (dat V c).owesAt () t.castSucc from rfl]
  dsimp only
  iintro ⟨HΦ, Ho, ⟨%d0, HA⟩, ⟨%d1, HH⟩, ⟨%d2, HO⟩⟩
  ihave HΦ' := (PhiS_forget V c _ _) $$ HΦ
  icases HΦ' with ⟨⟨HS, Hr⟩, Hg⟩
  iapply ((resetAt c t h0 (iblk V c 0 t) (iblk V c 1 t)).2 _ Set.univ _)
  isplitl [HA]; · iexact HA
  isplitl [HH]; · iexact HH
  isplitl [HO]; · iexact HO
  isplitl [HS]; · iexact HS
  iintro ⟨HA, HH, HO, HS'⟩
  ihave HS := (owns_canon c accM _ (reset_covers c _ _ _ _ _ _ _ _ _ _ _ _ _)) $$ HS'
  isplitl [HS Hr Hg]
  · isplitl [HS Hr]
    · isplitl [HS]; · iexact HS
      iexact Hr
    iexact Hg
  isplitl [Ho]; · iexact Ho
  isplitl [HA]; · iexact HA
  isplitl [HH]; · iexact HH
  iexists _; iexact HO

set_option maxHeartbeats 1600000 in
/-- Column steps 1, 2: the accumulator is taken at what the point before left and handed back with
    the product added. -/
theorem body_step (c : Dev nD) (t : Fin cfg1.N) (h0 : t.val % 4 ≠ 0) (h3 : t.val % 4 ≠ 3) : bodyPre V c t ⊢ wp frame (wpE (defs₀ (F := F)) Variants.none c none) Set.univ (bodyAt1 t) (fun _ => bodyPost V c t) := by
  unfold bodyPre bodyPost bodyAt1
  simp only [before_A, before_H]
  rw [leaves_A, leaves_H, leaves_O_parked V c t h3, Phi_end, outsAt_step V c t h0 h3, Phi_start,
    PhiS_pos V c _ _ (fun e : t.val = 0 => h0 (by rw [e]))]
  rw [show (dat V c).owesAt () t.succ = (dat V c).owesAt () t.castSucc from rfl]
  dsimp only
  iintro ⟨⟨⟨HS, Hr⟩, Hg⟩, Ho, ⟨%d0, HA⟩, ⟨%d1, HH⟩, ⟨%d2, HO⟩⟩
  iapply ((stepAt c t h0 h3 (iblk V c 0 t) (iblk V c 1 t) _).2 _ Set.univ _)
  isplitl [HA]; · iexact HA
  isplitl [HH]; · iexact HH
  isplitl [HO]; · iexact HO
  isplitl [HS]; · iexact HS
  iintro ⟨HA, HH, HO, HS'⟩
  ihave HS := (owns_canon c accM _ (step_covers c _ _ _ _ _ _ _ _ _ _ _ _ _ _)) $$ HS'
  isplitl [HS Hr Hg]
  · isplitl [HS Hr]
    · isplitl [HS]; · iexact HS
      iexact Hr
    iexact Hg
  isplitl [Ho]; · iexact Ho
  isplitl [HA]; · iexact HA
  isplitl [HH]; · iexact HH
  iexists _; iexact HO

set_option maxHeartbeats 1600000 in
/-- Column step 3: as steps 1, 2, and the output block, taken at anything, is handed back holding the
    positive part of the accumulator. -/
theorem body_last (c : Dev nD) (t : Fin cfg1.N) (h3 : t.val % 4 = 3) : bodyPre V c t ⊢ wp frame (wpE (defs₀ (F := F)) Variants.none c none) Set.univ (bodyAt1 t) (fun _ => bodyPost V c t) := by
  unfold bodyPre bodyPost bodyAt1
  simp only [before_A, before_H]
  rw [leaves_A, leaves_H, leaves_O_stored V c t h3, Phi_end, outsAt_last V c t h3, Phi_start,
    PhiS_pos V c _ _ (fun e : t.val = 0 => by omega)]
  rw [show (dat V c).owesAt () t.succ = (dat V c).owesAt () t.castSucc from rfl]
  dsimp only
  iintro ⟨⟨⟨HS, Hr⟩, Hg⟩, Ho, ⟨%d0, HA⟩, ⟨%d1, HH⟩, ⟨%d2, HO⟩⟩
  iapply ((lastAt c t h3 (iblk V c 0 t) (iblk V c 1 t) _).2.2 Set.univ _)
  isplitl [HA]; · iexact HA
  isplitl [HH]; · iexact HH
  isplitl [HO]; · iexists _; iexact HO
  isplitl [HS]; · iexact HS
  iintro ⟨HA, HH, HO', HS'⟩
  ihave HS := (owns_canon c accM _ (last_covers_acc c _ _ _ _ _ _ _ _ _ _ _ _ _ _)) $$ HS'
  ihave HO := (owns_canon c (bufO t) _ (last_covers_out c _ _ _ _ _ _ _ _ _ _ _ _ _ _)) $$ HO'
  isplitl [HS Hr Hg]
  · isplitl [HS Hr]
    · isplitl [HS]; · iexact HS
      iexact Hr
    iexact Hg
  isplitl [Ho]; · iexact Ho
  isplitl [HA]; · iexact HA
  isplitl [HH]; · iexact HH
  iexact HO

/-- The body obligation: every position is one of the three kinds. -/
theorem body_obligation (c : Dev nD) : BodyObligation (dat (F := F) V c) (defs₀ (F := F)) Variants.none () Set.univ := fun t => by
  rw [bigSep_W1, bigSep_W1]
  by_cases h0 : t.val % 4 = 0
  · exact body_reset V c t h0
  · by_cases h3 : t.val % 4 = 3
    · exact body_last V c t h3
    · exact body_step V c t h0 h3

/-- What the launch hands the region is the invariant before the first point. -/
theorem hin (c : Dev nD) : Pipeline.ΦA spec1 c ⊢ (dat V c).Φ 0 := Entails.refl _

/-- After the last point the invariant gives the launch's back: what the accumulator holds is forgotten. -/
theorem hout (c : Dev nD) : (dat V c).Φ (Fin.last cfg1.N) ⊢ Pipeline.ΦA spec1 c := by
  rw [entry_eq, show (dat V c).Φ (Fin.last cfg1.N) = PhiS V c (Fin.last cfg1.N).val (Nat.le_of_lt_succ (Fin.last cfg1.N).isLt) from rfl]
  exact PhiS_forget V c _ _

end Region

end Cert.KernelIdeal.Agg1

end
-- ==== Proof.KiRun.lean ====
/-
  The whole run of the program: its six kernel regions and the host operations between them, composed in order.

  Between two items of the main function every buffer outside the kernels' private memory holds a definite content; this
  file names those contents as a chain `W0, W1, …, W11` from the memory the program is started with: a stretch of host
  operations replaces the contents by what its operations compute from them; a kernel region replaces the contents of the
  arrays its windows stage by what its grid of block write-backs leaves in them (its input arrays end as they were, its
  output array ends as the fold of its blocks) and touches nothing else. Each region is then a step from one link of the
  chain to the next, justified by that region's body run at every grid point, and the program's run ends with every such
  buffer at `W11`. The argument arrays are written by no item, so they are read back unchanged along the chain; the
  result array `main_v32` is what the last region's write-backs leave.
-/
import proofs.«124142_j80221399155047_1_alg».proof.Proof.Gen.KernelIdeal.Regions
import proofs.«124142_j80221399155047_1_alg».proof.Proof.KiLin0
import proofs.«124142_j80221399155047_1_alg».proof.Proof.KiAgg1
import proofs.«124142_j80221399155047_1_alg».proof.Proof.KiLin2
import proofs.«124142_j80221399155047_1_alg».proof.Proof.KiAgg3
import proofs.«124142_j80221399155047_1_alg».proof.Proof.KiLin4
import proofs.«124142_j80221399155047_1_alg».proof.Proof.KiAgg5

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents between items -/

/-- Core `c`'s buffers when the program starts. -/
abbrev W0 : Dev nD → Valuation τ sig (Elt F) := fun c b => m (c, b)
/-- After the host operations `hostOps0`. -/
abbrev W1 : Dev nD → Valuation τ sig (Elt F) := fun c => StableHlo.after hostOps0 (W0 m c)
/-- After the host operations `hostOps0_1`. -/
abbrev W2 : Dev nD → Valuation τ sig (Elt F) := fun c => StableHlo.after hostOps0_1 (W1 m c)
/-- After the host operations `hostOps0_2`. -/
abbrev W3 : Dev nD → Valuation τ sig (Elt F) := fun c => StableHlo.after hostOps0_2 (W2 m c)
/-- The contents region 0 is entered from, read at the TensorCore's references. -/
abbrev V3 : (c : Dev nD) → (b : Ref sig .tc) → Buf (Elt F) ((c : Thread nD τ).loc b) := fun c b => W3 m c b
/-- After region 0: its arrays at what its write-backs leave, every other buffer as it was. -/
def W4 (c : Dev nD) : Valuation τ sig (Elt F) :=
  Pipeline.withArrays spec0 c (W3 m c) fun w => (Lin0.dat (V3 m) c).arrAt w cfg0.N
theorem W4_arr (c : Dev nD) (w : Fin cfg0.W) :
    W4 m c (Proc.devRef .tc (Pipeline.arrRef spec0 w)) = (Lin0.dat (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The contents region 0 leaves, read at the TensorCore's references. -/
abbrev V4x : (c : Dev nD) → (b : Ref sig .tc) → Buf (Elt F) ((c : Thread nD τ).loc b) := fun c b => W4 m c b
theorem hF0 (c : Dev nD) (w : Fin cfg0.W) : (Lin0.dat (V3 m) c).arrAt w cfg0.N = V4x m c (Pipeline.arrRef spec0 w) :=
  (W4_arr m c w).symm
theorem hrest0 (c : Dev nD) : ∀ b, b ∉ Finset.univ.image (Pipeline.arrRef spec0) → V4x m c b = V3 m c b :=
  fun b hb => W4_of_ne m c b fun w e => hb (Finset.mem_image.mpr ⟨w, Finset.mem_univ _, e⟩)
/-- A region changes its output array only: an input array it stages ends as it was, and it touches nothing else. -/
theorem W4_keeps (c : Dev nD) (b : Ref sig .tc) (hb : b ≠ main_v25) : W4 m c (Proc.devRef .tc b) = W3 m c (Proc.devRef .tc b) := by
  by_cases h0 : b = main_arg0
  · subst h0; exact (W4_arr m c 0).trans (((Lin0.dat (V3 m) c).arrAt_in 0 rfl _).trans (Lin0.A_eq (V3 m) c 0))
  by_cases h1 : b = main_v24
  · subst h1; exact (W4_arr m c 1).trans (((Lin0.dat (V3 m) c).arrAt_in 1 rfl _).trans (Lin0.A_eq (V3 m) c 1))
  refine W4_of_ne m c b fun w => ?_
  match w with
  | ⟨0, _⟩ => exact fun e => h0 e.symm
  | ⟨1, _⟩ => exact fun e => h1 e.symm
  | ⟨2, _⟩ => exact fun e => hb e.symm
/-- The contents region 1 is entered from, read at the TensorCore's references. -/
abbrev V4 : (c : Dev nD) → (b : Ref sig .tc) → Buf (Elt F) ((c : Thread nD τ).loc b) := fun c b => W4 m c b
/-- After region 1: its arrays at what its write-backs leave, every other buffer as it was. -/
def W5 (c : Dev nD) : Valuation τ sig (Elt F) :=
  Pipeline.withArrays spec1 c (W4 m c) fun w => (Agg1.dat (V4 m) c).arrAt w cfg1.N
theorem W5_arr (c : Dev nD) (w : Fin cfg1.W) :
    W5 m c (Proc.devRef .tc (Pipeline.arrRef spec1 w)) = (Agg1.dat (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
/-- The contents region 1 leaves, read at the TensorCore's references. -/
abbrev V5x : (c : Dev nD) → (b : Ref sig .tc) → Buf (Elt F) ((c : Thread nD τ).loc b) := fun c b => W5 m c b
theorem hF1 (c : Dev nD) (w : Fin cfg1.W) : (Agg1.dat (V4 m) c).arrAt w cfg1.N = V5x m c (Pipeline.arrRef spec1 w) :=
  (W5_arr m c w).symm
theorem hrest1 (c : Dev nD) : ∀ b, b ∉ Finset.univ.image (Pipeline.arrRef spec1) → V5x m c b = V4 m c b :=
  fun b hb => W5_of_ne m c b fun w e => hb (Finset.mem_image.mpr ⟨w, Finset.mem_univ _, e⟩)
/-- A region changes its output array only: an input array it stages ends as it was, and it touches nothing else. -/
theorem W5_keeps (c : Dev nD) (b : Ref sig .tc) (hb : b ≠ main_v26) : W5 m c (Proc.devRef .tc b) = W4 m c (Proc.devRef .tc b) := by
  by_cases h0 : b = main_v23
  · subst h0; exact (W5_arr m c 0).trans (((Agg1.dat (V4 m) c).arrAt_in 0 rfl _).trans (Agg1.A_eq (V4 m) c 0))
  by_cases h1 : b = main_v25
  · subst h1; exact (W5_arr m c 1).trans (((Agg1.dat (V4 m) c).arrAt_in 1 rfl _).trans (Agg1.A_eq (V4 m) c 1))
  refine W5_of_ne m c b fun w => ?_
  match w with
  | ⟨0, _⟩ => exact fun e => h0 e.symm
  | ⟨1, _⟩ => exact fun e => h1 e.symm
  | ⟨2, _⟩ => exact fun e => hb e.symm
/-- After the host operations `hostOps2`. -/
abbrev W6 : Dev nD → Valuation τ sig (Elt F) := fun c => StableHlo.after hostOps2 (W5 m c)
/-- The contents region 2 is entered from, read at the TensorCore's references. -/
abbrev V6 : (c : Dev nD) → (b : Ref sig .tc) → Buf (Elt F) ((c : Thread nD τ).loc b) := fun c b => W6 m c b
/-- After region 2: its arrays at what its write-backs leave, every other buffer as it was. -/
def W7 (c : Dev nD) : Valuation τ sig (Elt F) :=
  Pipeline.withArrays spec2 c (W6 m c) fun w => (Lin2.dat (V6 m) c).arrAt w cfg2.N
theorem W7_arr (c : Dev nD) (w : Fin cfg2.W) :
    W7 m c (Proc.devRef .tc (Pipeline.arrRef spec2 w)) = (Lin2.dat (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
/-- The contents region 2 leaves, read at the TensorCore's references. -/
abbrev V7x : (c : Dev nD) → (b : Ref sig .tc) → Buf (Elt F) ((c : Thread nD τ).loc b) := fun c b => W7 m c b
theorem hF2 (c : Dev nD) (w : Fin cfg2.W) : (Lin2.dat (V6 m) c).arrAt w cfg2.N = V7x m c (Pipeline.arrRef spec2 w) :=
  (W7_arr m c w).symm
theorem hrest2 (c : Dev nD) : ∀ b, b ∉ Finset.univ.image (Pipeline.arrRef spec2) → V7x m c b = V6 m c b :=
  fun b hb => W7_of_ne m c b fun w e => hb (Finset.mem_image.mpr ⟨w, Finset.mem_univ _, e⟩)
/-- A region changes its output array only: an input array it stages ends as it was, and it touches nothing else. -/
theorem W7_keeps (c : Dev nD) (b : Ref sig .tc) (hb : b ≠ main_v28) : W7 m c (Proc.devRef .tc b) = W6 m c (Proc.devRef .tc b) := by
  by_cases h0 : b = main_v26
  · subst h0; exact (W7_arr m c 0).trans (((Lin2.dat (V6 m) c).arrAt_in 0 rfl _).trans (Lin2.A_eq (V6 m) c 0))
  by_cases h1 : b = main_v27
  · subst h1; exact (W7_arr m c 1).trans (((Lin2.dat (V6 m) c).arrAt_in 1 rfl _).trans (Lin2.A_eq (V6 m) c 1))
  refine W7_of_ne m c b fun w => ?_
  match w with
  | ⟨0, _⟩ => exact fun e => h0 e.symm
  | ⟨1, _⟩ => exact fun e => h1 e.symm
  | ⟨2, _⟩ => exact fun e => hb e.symm
/-- The contents region 3 is entered from, read at the TensorCore's references. -/
abbrev V7 : (c : Dev nD) → (b : Ref sig .tc) → Buf (Elt F) ((c : Thread nD τ).loc b) := fun c b => W7 m c b
/-- After region 3: its arrays at what its write-backs leave, every other buffer as it was. -/
def W8 (c : Dev nD) : Valuation τ sig (Elt F) :=
  Pipeline.withArrays spec3 c (W7 m c) fun w => (Agg3.dat (V7 m) c).arrAt w cfg3.N
theorem W8_arr (c : Dev nD) (w : Fin cfg3.W) :
    W8 m c (Proc.devRef .tc (Pipeline.arrRef spec3 w)) = (Agg3.dat (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- The contents region 3 leaves, read at the TensorCore's references. -/
abbrev V8x : (c : Dev nD) → (b : Ref sig .tc) → Buf (Elt F) ((c : Thread nD τ).loc b) := fun c b => W8 m c b
theorem hF3 (c : Dev nD) (w : Fin cfg3.W) : (Agg3.dat (V7 m) c).arrAt w cfg3.N = V8x m c (Pipeline.arrRef spec3 w) :=
  (W8_arr m c w).symm
theorem hrest3 (c : Dev nD) : ∀ b, b ∉ Finset.univ.image (Pipeline.arrRef spec3) → V8x m c b = V7 m c b :=
  fun b hb => W8_of_ne m c b fun w e => hb (Finset.mem_image.mpr ⟨w, Finset.mem_univ _, e⟩)
/-- A region changes its output array only: an input array it stages ends as it was, and it touches nothing else. -/
theorem W8_keeps (c : Dev nD) (b : Ref sig .tc) (hb : b ≠ main_v29) : W8 m c (Proc.devRef .tc b) = W7 m c (Proc.devRef .tc b) := by
  by_cases h0 : b = main_v23
  · subst h0; exact (W8_arr m c 0).trans (((Agg3.dat (V7 m) c).arrAt_in 0 rfl _).trans (Agg3.A_eq (V7 m) c 0))
  by_cases h1 : b = main_v28
  · subst h1; exact (W8_arr m c 1).trans (((Agg3.dat (V7 m) c).arrAt_in 1 rfl _).trans (Agg3.A_eq (V7 m) c 1))
  refine W8_of_ne m c b fun w => ?_
  match w with
  | ⟨0, _⟩ => exact fun e => h0 e.symm
  | ⟨1, _⟩ => exact fun e => h1 e.symm
  | ⟨2, _⟩ => exact fun e => hb e.symm
/-- After the host operations `hostOps4`. -/
abbrev W9 : Dev nD → Valuation τ sig (Elt F) := fun c => StableHlo.after hostOps4 (W8 m c)
/-- The contents region 4 is entered from, read at the TensorCore's references. -/
abbrev V9 : (c : Dev nD) → (b : Ref sig .tc) → Buf (Elt F) ((c : Thread nD τ).loc b) := fun c b => W9 m c b
/-- After region 4: its arrays at what its write-backs leave, every other buffer as it was. -/
def W10 (c : Dev nD) : Valuation τ sig (Elt F) :=
  Pipeline.withArrays spec4 c (W9 m c) fun w => (Lin4.dat (V9 m) c).arrAt w cfg4.N
theorem W10_arr (c : Dev nD) (w : Fin cfg4.W) :
    W10 m c (Proc.devRef .tc (Pipeline.arrRef spec4 w)) = (Lin4.dat (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
/-- The contents region 4 leaves, read at the TensorCore's references. -/
abbrev V10x : (c : Dev nD) → (b : Ref sig .tc) → Buf (Elt F) ((c : Thread nD τ).loc b) := fun c b => W10 m c b
theorem hF4 (c : Dev nD) (w : Fin cfg4.W) : (Lin4.dat (V9 m) c).arrAt w cfg4.N = V10x m c (Pipeline.arrRef spec4 w) :=
  (W10_arr m c w).symm
theorem hrest4 (c : Dev nD) : ∀ b, b ∉ Finset.univ.image (Pipeline.arrRef spec4) → V10x m c b = V9 m c b :=
  fun b hb => W10_of_ne m c b fun w e => hb (Finset.mem_image.mpr ⟨w, Finset.mem_univ _, e⟩)
/-- A region changes its output array only: an input array it stages ends as it was, and it touches nothing else. -/
theorem W10_keeps (c : Dev nD) (b : Ref sig .tc) (hb : b ≠ main_v31) : W10 m c (Proc.devRef .tc b) = W9 m c (Proc.devRef .tc b) := by
  by_cases h0 : b = main_v29
  · subst h0; exact (W10_arr m c 0).trans (((Lin4.dat (V9 m) c).arrAt_in 0 rfl _).trans (Lin4.A_eq (V9 m) c 0))
  by_cases h1 : b = main_v30
  · subst h1; exact (W10_arr m c 1).trans (((Lin4.dat (V9 m) c).arrAt_in 1 rfl _).trans (Lin4.A_eq (V9 m) c 1))
  refine W10_of_ne m c b fun w => ?_
  match w with
  | ⟨0, _⟩ => exact fun e => h0 e.symm
  | ⟨1, _⟩ => exact fun e => h1 e.symm
  | ⟨2, _⟩ => exact fun e => hb e.symm
/-- The contents region 5 is entered from, read at the TensorCore's references. -/
abbrev V10 : (c : Dev nD) → (b : Ref sig .tc) → Buf (Elt F) ((c : Thread nD τ).loc b) := fun c b => W10 m c b
/-- After region 5: its arrays at what its write-backs leave, every other buffer as it was. -/
def W11 (c : Dev nD) : Valuation τ sig (Elt F) :=
  Pipeline.withArrays spec5 c (W10 m c) fun w => (Agg5.dat (V10 m) c).arrAt w cfg5.N
theorem W11_arr (c : Dev nD) (w : Fin cfg5.W) :
    W11 m c (Proc.devRef .tc (Pipeline.arrRef spec5 w)) = (Agg5.dat (V10 m) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m c (Proc.devRef .tc b) = W10 m c (Proc.devRef .tc b) := by
  unfold W11; exact Pipeline.withArrays_of_ne spec5 c _ _ b hb
/-- The contents region 5 leaves, read at the TensorCore's references. -/
abbrev V11x : (c : Dev nD) → (b : Ref sig .tc) → Buf (Elt F) ((c : Thread nD τ).loc b) := fun c b => W11 m c b
theorem hF5 (c : Dev nD) (w : Fin cfg5.W) : (Agg5.dat (V10 m) c).arrAt w cfg5.N = V11x m c (Pipeline.arrRef spec5 w) :=
  (W11_arr m c w).symm
theorem hrest5 (c : Dev nD) : ∀ b, b ∉ Finset.univ.image (Pipeline.arrRef spec5) → V11x m c b = V10 m c b :=
  fun b hb => W11_of_ne m c b fun w e => hb (Finset.mem_image.mpr ⟨w, Finset.mem_univ _, e⟩)
/-- A region changes its output array only: an input array it stages ends as it was, and it touches nothing else. -/
theorem W11_keeps (c : Dev nD) (b : Ref sig .tc) (hb : b ≠ main_v32) : W11 m c (Proc.devRef .tc b) = W10 m c (Proc.devRef .tc b) := by
  by_cases h0 : b = main_v23
  · subst h0; exact (W11_arr m c 0).trans (((Agg5.dat (V10 m) c).arrAt_in 0 rfl _).trans (Agg5.A_eq (V10 m) c 0))
  by_cases h1 : b = main_v31
  · subst h1; exact (W11_arr m c 1).trans (((Agg5.dat (V10 m) c).arrAt_in 1 rfl _).trans (Agg5.A_eq (V10 m) c 1))
  refine W11_of_ne m c b fun w => ?_
  match w with
  | ⟨0, _⟩ => exact fun e => h0 e.symm
  | ⟨1, _⟩ => exact fun e => h1 e.symm
  | ⟨2, _⟩ => exact fun e => hb e.symm

/-! ## What the host stretches leave alone -/

theorem W1_keeps (c : Dev nD) (b : Ref sig .tc) (hb : b ∉ hostOps0_W) : W1 m c (Proc.devRef .tc b) = W0 m c (Proc.devRef .tc b) :=
  StableHlo.after_of_writes_sub hostOps0 _ hostOps0_writes hb
theorem W2_keeps (c : Dev nD) (b : Ref sig .tc) (hb : b ∉ hostOps0_1_W) : W2 m c (Proc.devRef .tc b) = W1 m c (Proc.devRef .tc b) :=
  StableHlo.after_of_writes_sub hostOps0_1 _ hostOps0_1_writes hb
theorem W3_keeps (c : Dev nD) (b : Ref sig .tc) (hb : b ∉ hostOps0_2_W) : W3 m c (Proc.devRef .tc b) = W2 m c (Proc.devRef .tc b) :=
  StableHlo.after_of_writes_sub hostOps0_2 _ hostOps0_2_writes hb
theorem W6_keeps (c : Dev nD) (b : Ref sig .tc) (hb : b ∉ hostOps2_W) : W6 m c (Proc.devRef .tc b) = W5 m c (Proc.devRef .tc b) :=
  StableHlo.after_of_writes_sub hostOps2 _ hostOps2_writes hb
theorem W9_keeps (c : Dev nD) (b : Ref sig .tc) (hb : b ∉ hostOps4_W) : W9 m c (Proc.devRef .tc b) = W8 m c (Proc.devRef .tc b) :=
  StableHlo.after_of_writes_sub hostOps4 _ hostOps4_writes hb

/-! ## The argument arrays are written by no item -/

theorem W11_main_arg0 (c : Dev nD) : W11 m c (Proc.devRef .tc main_arg0) = m ((c : Thread nD τ).loc main_arg0) :=
  (W11_keeps m c main_arg0 (by decide)).trans <| (W10_keeps m c main_arg0 (by decide)).trans <| (W9_keeps m c main_arg0 (by decide)).trans <| (W8_keeps m c main_arg0 (by decide)).trans <| (W7_keeps m c main_arg0 (by decide)).trans <| (W6_keeps m c main_arg0 (by decide)).trans <| (W5_keeps m c main_arg0 (by decide)).trans <| (W4_keeps m c main_arg0 (by decide)).trans <| (W3_keeps m c main_arg0 (by decide)).trans <| (W2_keeps m c main_arg0 (by decide)).trans <| (W1_keeps m c main_arg0 (by decide))
theorem W11_main_arg1 (c : Dev nD) : W11 m c (Proc.devRef .tc main_arg1) = m ((c : Thread nD τ).loc main_arg1) :=
  (W11_keeps m c main_arg1 (by decide)).trans <| (W10_keeps m c main_arg1 (by decide)).trans <| (W9_keeps m c main_arg1 (by decide)).trans <| (W8_keeps m c main_arg1 (by decide)).trans <| (W7_keeps m c main_arg1 (by decide)).trans <| (W6_keeps m c main_arg1 (by decide)).trans <| (W5_keeps m c main_arg1 (by decide)).trans <| (W4_keeps m c main_arg1 (by decide)).trans <| (W3_keeps m c main_arg1 (by decide)).trans <| (W2_keeps m c main_arg1 (by decide)).trans <| (W1_keeps m c main_arg1 (by decide))
theorem W11_main_arg2 (c : Dev nD) : W11 m c (Proc.devRef .tc main_arg2) = m ((c : Thread nD τ).loc main_arg2) :=
  (W11_keeps m c main_arg2 (by decide)).trans <| (W10_keeps m c main_arg2 (by decide)).trans <| (W9_keeps m c main_arg2 (by decide)).trans <| (W8_keeps m c main_arg2 (by decide)).trans <| (W7_keeps m c main_arg2 (by decide)).trans <| (W6_keeps m c main_arg2 (by decide)).trans <| (W5_keeps m c main_arg2 (by decide)).trans <| (W4_keeps m c main_arg2 (by decide)).trans <| (W3_keeps m c main_arg2 (by decide)).trans <| (W2_keeps m c main_arg2 (by decide)).trans <| (W1_keeps m c main_arg2 (by decide))
theorem W11_main_arg3 (c : Dev nD) : W11 m c (Proc.devRef .tc main_arg3) = m ((c : Thread nD τ).loc main_arg3) :=
  (W11_keeps m c main_arg3 (by decide)).trans <| (W10_keeps m c main_arg3 (by decide)).trans <| (W9_keeps m c main_arg3 (by decide)).trans <| (W8_keeps m c main_arg3 (by decide)).trans <| (W7_keeps m c main_arg3 (by decide)).trans <| (W6_keeps m c main_arg3 (by decide)).trans <| (W5_keeps m c main_arg3 (by decide)).trans <| (W4_keeps m c main_arg3 (by decide)).trans <| (W3_keeps m c main_arg3 (by decide)).trans <| (W2_keeps m c main_arg3 (by decide)).trans <| (W1_keeps m c main_arg3 (by decide))

/-! ## The proof data of the six regions and the state that rides along -/

/-- Every region's proof data, each at the contents its region is entered from. -/
def pdats : (p : Fin 6) → (c : Dev nD) → Dat τ (Elt F) Unit ℕ (UR sig nD τ) ℕ (Pipeline.pin (pcfgs (F := F)) adm p) c
  | ⟨0, _⟩ => fun c => Lin0.dat (V3 m) c
  | ⟨1, _⟩ => fun c => Agg1.dat (V4 m) c
  | ⟨2, _⟩ => fun c => Lin2.dat (V6 m) c
  | ⟨3, _⟩ => fun c => Agg3.dat (V7 m) c
  | ⟨4, _⟩ => fun c => Lin4.dat (V9 m) c
  | ⟨5, _⟩ => fun c => Agg5.dat (V10 m) c
abbrev 𝒱₀ : Variants := Variants.none
/-- No core waits for another: no level is assigned. -/
abbrev L : GSem nD τ sig → Finset Unit := fun _ => ∅
abbrev lv : GSem nD τ sig → Unit → ℕ := fun _ _ => 0
/-- Beside the buffers, through every item: the core's generator register at some state, and nothing owed. -/
abbrev R (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the debt: every buffer at the last contents, the generator register at some state. -/
abbrev Tₙ (c : Dev nD) : sProp 𝕄 := iprop(StableHlo.held (c : Thread nD τ) (Pipeline.ucRefs τ sig) (W11 m c) ∗ ∃ r, prngReg c r)

/-! ## The regions as items -/

set_option backward.isDefEq.respectTransparency.types false in
/-- Region 0: entered with every buffer at `W3`, left with every buffer at `W4`. Its arrays are split out of the
    buffers on entry and put back at what the write-backs leave on exit; the generator register and the scoped buffers
    the windows do not stage go into the region's invariant and come back; the kernel has no semaphore of its own and
    nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Lin0.body_obligation (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (Lin0.dat (V3 m) c).Φ 0 from rfl]
    refine .trans ?_ (Lin0.hin (V3 m) c)
    unfold Pipeline.ΦA
    iintro ⟨Hp, -, Hr⟩
    isplitl [Hr]; · iexact Hr
    iexact Hp
  hout c := by
    rw [Pipeline.ownSems0_none, show (pdats m 0 c).Φ (Fin.last _) = (Lin0.dat (V3 m) c).Φ (Fin.last cfg0.N) from rfl]
    refine (Lin0.hout (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4x m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every buffer at `W4`, left with every buffer at `W5`. Its arrays are split out of the
    buffers on entry and put back at what the write-backs leave on exit; the generator register and the scoped buffers
    the windows do not stage go into the region's invariant and come back; the kernel has no semaphore of its own and
    nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Agg1.body_obligation (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (Agg1.dat (V4 m) c).Φ 0 from rfl]
    refine .trans ?_ (Agg1.hin (V4 m) c)
    unfold Pipeline.ΦA
    iintro ⟨Hp, -, Hr⟩
    isplitl [Hr]; · iexact Hr
    iexact Hp
  hout c := by
    rw [Pipeline.ownSems0_none, show (pdats m 1 c).Φ (Fin.last _) = (Agg1.dat (V4 m) c).Φ (Fin.last cfg1.N) from rfl]
    refine (Agg1.hout (V4 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5x m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every buffer at `W6`, left with every buffer at `W7`. Its arrays are split out of the
    buffers on entry and put back at what the write-backs leave on exit; the generator register and the scoped buffers
    the windows do not stage go into the region's invariant and come back; the kernel has no semaphore of its own and
    nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Lin2.body_obligation (V6 m) c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (V6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (Lin2.dat (V6 m) c).Φ 0 from rfl]
    refine .trans ?_ (Lin2.hin (V6 m) c)
    unfold Pipeline.ΦA
    iintro ⟨Hp, -, Hr⟩
    isplitl [Hr]; · iexact Hr
    iexact Hp
  hout c := by
    rw [Pipeline.ownSems0_none, show (pdats m 2 c).Φ (Fin.last _) = (Lin2.dat (V6 m) c).Φ (Fin.last cfg2.N) from rfl]
    refine (Lin2.hout (V6 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V6 m c) (V7x m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every buffer at `W7`, left with every buffer at `W8`. Its arrays are split out of the
    buffers on entry and put back at what the write-backs leave on exit; the generator register and the scoped buffers
    the windows do not stage go into the region's invariant and come back; the kernel has no semaphore of its own and
    nothing is owed. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (Agg3.body_obligation (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (Agg3.dat (V7 m) c).Φ 0 from rfl]
    refine .trans ?_ (Agg3.hin (V7 m) c)
    unfold Pipeline.ΦA
    iintro ⟨Hp, -, Hr⟩
    isplitl [Hr]; · iexact Hr
    iexact Hp
  hout c := by
    rw [Pipeline.ownSems0_none, show (pdats m 3 c).Φ (Fin.last _) = (Agg3.dat (V7 m) c).Φ (Fin.last cfg3.N) from rfl]
    refine (Agg3.hout (V7 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8x m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every buffer at `W9`, left with every buffer at `W10`. Its arrays are split out of the
    buffers on entry and put back at what the write-backs leave on exit; the generator register and the scoped buffers
    the windows do not stage go into the region's invariant and come back; the kernel has no semaphore of its own and
    nothing is owed. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (Lin4.body_obligation (V9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (V9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (Lin4.dat (V9 m) c).Φ 0 from rfl]
    refine .trans ?_ (Lin4.hin (V9 m) c)
    unfold Pipeline.ΦA
    iintro ⟨Hp, -, Hr⟩
    isplitl [Hr]; · iexact Hr
    iexact Hp
  hout c := by
    rw [Pipeline.ownSems0_none, show (pdats m 4 c).Φ (Fin.last _) = (Lin4.dat (V9 m) c).Φ (Fin.last cfg4.N) from rfl]
    refine (Lin4.hout (V9 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V9 m c) (V10x m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered with every buffer at `W10`, left with every buffer at `W11`. Its arrays are split out of the
    buffers on entry and put back at what the write-backs leave on exit; the generator register and the scoped buffers
    the windows do not stage go into the region's invariant and come back; the kernel has no semaphore of its own and
    nothing is owed. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (Agg5.body_obligation (V10 m) c).loose
  hwaits := Pipeline.hwaits_of_owed_zero _ _ _ _ L lv 5 fun _ _ => rfl
  pre c := iprop(StableHlo.held (c : Thread nD τ) (Pipeline.ucRefs τ sig) (W10 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V10 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (V10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (Agg5.dat (V10 m) c).Φ 0 from rfl]
    refine .trans ?_ (Agg5.hin (V10 m) c)
    unfold Pipeline.ΦA
    iintro ⟨Hp, -, Hr⟩
    isplitl [Hr]; · iexact Hr
    iexact Hp
  hout c := by
    rw [Pipeline.ownSems0_none, show (pdats m 5 c).Φ (Fin.last _) = (Agg5.dat (V10 m) c).Φ (Fin.last cfg5.N) from rfl]
    refine (Agg5.hout (V10 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (V10 m c) (V11x m c) ((pdats m 5 c).arrAt · cfg5.N) (hF5 m c) (hrest5 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The main function as its items, and the launch -/

/-- The eleven items of the main function, in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .region (reg1 m),
    .host (hseg hostOps2 hostOps2_sub hostOps2_fresh (W5 m)),
    .region (reg2 m),
    .region (reg3 m),
    .host (hseg hostOps4 hostOps4_sub hostOps4_fresh (W8 m)),
    .region (reg4 m),
    .region (reg5 m) ]

/-- The main function is the run of its items. -/
theorem main_run (c : Dev nD) : main (F := F) c = Pipeline.Seg.run (segs m) := by
  rw [main_chain c, Pipeline.Seg.run_eq_chain]
  rfl

variable (ρ : Dev nD → PrngReg)

set_option backward.isDefEq.respectTransparency.types false in
/-- From any memory with zero counters, every weakly fair execution of the program terminates without a fault, and in the
    final memory every buffer outside the kernels' private memory holds the last link `W11` of the chain of contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h => h)

/-- The frame: the program runs to the end, faults nowhere, and leaves its four argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W11_main_arg0 m c),
     (h c _ (mem_uc main_arg1 (by decide))).trans (W11_main_arg1 m c),
     (h c _ (mem_uc main_arg2 (by decide))).trans (W11_main_arg2 m c),
     (h c _ (mem_uc main_arg3 (by decide))).trans (W11_main_arg3 m c)⟩) (run_all m ρ)

/-- The same run with the result array named: it ends at what region 5's write-backs leave. -/
theorem run_result : θ_run defs (onTc (τ := τ) (main (F := F))) ⟨m, fun _ => 0, ρ⟩ (fun r => ∀ c : Dev nD,
      r.2.mem ((c.tc : Thread nD τ).loc main_v32) = W11 m c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v32 (by decide)),
     (h c _ (mem_uc main_arg0 (by decide))).trans (W11_main_arg0 m c),
     (h c _ (mem_uc main_arg1 (by decide))).trans (W11_main_arg1 m c),
     (h c _ (mem_uc main_arg2 (by decide))).trans (W11_main_arg2 m c),
     (h c _ (mem_uc main_arg3 (by decide))).trans (W11_main_arg3 m c)⟩) (run_all m ρ)

end Cert.KernelIdeal.Run

end
-- ==== Proof.KiHost.lean ====
import proofs.«124142_j80221399155047_1_alg».proof.Proof.Gen.KernelIdeal.Launch
import Idealize.ShloMosaic.Lib.StableHlo.Run

/-!
# What the kernel program's host operations leave for its launches

Before its first launch the kernel program builds, with the same host operations as the reference, the
normalised adjacency `adj` of the fixed graph, rounds it to bf16, and transposes the first weight matrix; before
the third and the fifth launch it transposes the second and the third weight matrix. Each of those buffers is
read here as a pure term of the arguments.
-/

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- The normalised adjacency of the fixed graph on 8192 nodes. A node is *inner* when its number is below 64 and is
    not one of the fifteen listed numbers; the edge matrix is `1` everywhere except at the pairs of two inner
    nodes, where it is `0`; `rootDeg i` is the square root of the absolute row sum of the edge matrix; and the
    entry at `(i, j)` is `edge i j * rootDeg i * rootDeg j`. No argument of the program enters it. -/
def adj : FVec F S8192x8192 .f32 :=
  let node : IVec S8192 32 := iotaInDim S8192 32 0
  let listed : IVec S8192 1 :=
    Host.reduce IntOp.ori
      (cmpi .eq
        (broadcastInDim S8192x15 ![0, 1] bcast_S8192x1_S8192x15_0_1 (broadcastInDim S8192x1 ![0] bcast_S8192_S8192x1_0 node))
        (broadcastInDim S8192x15 ![0, 1] bcast_S1x15_S8192x15_0_1
          (broadcastInDim S1x15 ![1] bcast_S15_S1x15_1 (fun i => lit0 (S15.rowMajor i) : IVec S15 32))))
      (constantI S_ 1 0#1) reducesTo_S8192x15_S8192_d1 h_S_
  let inner : IVec S8192 1 :=
    andi (cmpi .slt node (broadcastInDim S8192 ![] bcast_S_S8192 (constantI S_ 32 64#32))) (noti listed)
  let bothInner : IVec S8192x8192 1 :=
    andi
      (broadcastInDim S8192x8192 ![0, 1] bcast_S8192x1_S8192x8192_0_1 (broadcastInDim S8192x1 ![0] bcast_S8192_S8192x1_0 inner))
      (broadcastInDim S8192x8192 ![0, 1] bcast_S1x8192_S8192x8192_0_1 (broadcastInDim S1x8192 ![1] bcast_S8192_S1x8192_1 inner))
  let edge : FVec F S8192x8192 .f32 :=
    subf (broadcastInDim S8192x8192 ![] bcast_S_S8192x8192 (constant (F := F) S_ .f32 0x3F800000#32))
      (uitofp (F := F) .f32 bothInner)
  let rootDeg : FVec F S8192 .f32 :=
    Host.sqrt (Host.absf
      (Host.reduceAdd edge (constant (F := F) S_ .f32 0x00000000#32) reducesTo_S8192x8192_S8192_d1 h_S_))
  mulf
    (mulf edge
      (broadcastInDim S8192x8192 ![0, 1] bcast_S8192x1_S8192x8192_0_1 (broadcastInDim S8192x1 ![0] bcast_S8192_S8192x1_0 rootDeg)))
    (broadcastInDim S8192x8192 ![0, 1] bcast_S1x8192_S8192x8192_0_1 (broadcastInDim S1x8192 ![1] bcast_S8192_S1x8192_1 rootDeg))

/-- The bf16 adjacency handed to every aggregation launch is `adj` rounded to bf16, whatever the memory held
    before the host prefix ran. -/
theorem adj_bf16_of (W : Valuation τ sig (Elt F)) :
    after hostOps0_2 (after hostOps0_1 (after hostOps0 W)) (Proc.devRef .tc main_v23)
      = truncf .bf16 (adj (F := F)) bitsLt_bf16_f32 := by
  after_results_simp
  simp only [TRef.toBuf, TRef.ofBuf, cast_eq]
  rfl

/-- The first linear launch reads the transpose of the first weight matrix. -/
theorem wt0_of (W : Valuation τ sig (Elt F)) :
    after hostOps0_2 (after hostOps0_1 (after hostOps0 W)) (Proc.devRef .tc main_v24)
      = transpose S256x256 [1, 0] (W (Proc.devRef .tc main_arg1)) transposes_S256x256_S256x256_1_0 := by
  after_results

/-- The second linear launch reads the transpose of the second weight matrix. -/
theorem wt1_of (W : Valuation τ sig (Elt F)) :
    after hostOps2 W (Proc.devRef .tc main_v27)
      = transpose S256x256 [1, 0] (W (Proc.devRef .tc main_arg2)) transposes_S256x256_S256x256_1_0 := by
  after_results

/-- The third linear launch reads the transpose of the third weight matrix. -/
theorem wt2_of (W : Valuation τ sig (Elt F)) :
    after hostOps4 W (Proc.devRef .tc main_v30)
      = transpose S256x256 [1, 0] (W (Proc.devRef .tc main_arg3)) transposes_S256x256_S256x256_1_0 := by
  after_results

end Cert.KernelIdeal.Host

end
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.LibDot.lean ====
/-
  A matrix product, a blocked sum, a transpose and the pointwise operations, each read at one entry, at the ideal values
  (every float an extended real, every operation exact, a change of format the identity).

  * The host's product of an [M, K] matrix by a [K, N] matrix with the PLAIN dimension numbers (the left operand contracted
    on its axis 1, the right on its axis 0, no batch axis): its entry (p, q) is the sum over k of lhs (p, k) · rhs (k, q),
    exactly as the same product accumulated into the zero matrix.
  * A sum over B · L consecutive coordinates is the sum over the B blocks of the sums over the L coordinates of each block:
    the extended reals are an additive commutative monoid, so a finite sum may be regrouped with no side condition. Four
    block sums added one after another onto zero are the sum over the four blocks.
  * A matrix transposed reads, at (p, q), the operand at (q, p).
  * A narrowing of the format and a cast between equal shapes read the operand's entry; a maximum against the zero splat is
    the maximum of the entry and zero; a sum of two arrays is the sum of the entries.
-/
import Idealize.ShloMosaic.PureOps.Ideal.Laws
import Idealize.ShloMosaic.Lib.ValueIdx
import Idealize.ShloMosaic.Lib.Pipeline.Value
import Mathlib.Algebra.BigOperators.Fin
import Mathlib.Logic.Equiv.Fin.Basic
import proofs.«124142_j80221399155047_1_alg».proof.Proof.LibPlainMatmul

noncomputable section

open scoped BigOperators
open Idealize.ShloMosaic Idealize.ShloMosaic.ValueIdx

namespace Cert.Lib.Dot

/-! ## The host's plain product at an entry -/

/-- The host's plain product at entry (p, q): the sum over k of lhs (p, k) · rhs (k, q), whatever the schedule key. -/
theorem dot_apply {M K N : Nat} (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) {φ₁ φ₂ : FTy} (lhs : FVec Ideal ⟨2, ![M, K]⟩ φ₁)
    (rhs : FVec Ideal ⟨2, ![K, N]⟩ φ₂) (p : Fin M) (q : Fin N) :
    FloatOps.dotGeneral d prec sched lhs rhs (ix2 p q) = ∑ k : Fin K, lhs (ix2 p k) * rhs (ix2 k q) := by
  rw [Ideal.dotGeneral_apply, ← Ideal.matmul_constant_zero_apply d prec lhs rhs (ix2 p q)]
  exact Cert.Lib.PlainMatmul.apply d hlc hrc hln hrn hlb hrb prec lhs rhs p q

/-- The same for the product as a host program states it, at the one-device schedule key and the default precision. -/
theorem host_dot_apply {M K N : Nat} (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    {φ₁ φ₂ : FTy} (lhs : FVec Ideal ⟨2, ![M, K]⟩ φ₁) (rhs : FVec Ideal ⟨2, ![K, N]⟩ φ₂) (p : Fin M) (q : Fin N) :
    Host.dotGeneral d none lhs rhs (ix2 p q) = ∑ k : Fin K, lhs (ix2 p k) * rhs (ix2 k q) :=
  dot_apply d hlc hrc hln hrn hlb hrb none .single lhs rhs p q

/-! ## A sum regrouped into blocks -/

/-- The coordinate b · L + j of block b lies below B · L. -/
theorem block_lt {B L : Nat} (b : Fin B) (j : Fin L) : b.val * L + j.val < B * L :=
  calc b.val * L + j.val < b.val * L + L := Nat.add_lt_add_left j.isLt _
    _ = (b.val + 1) * L := (Nat.succ_mul _ _).symm
    _ ≤ B * L := Nat.mul_le_mul_right L b.isLt

/-- A sum over B · L coordinates is the sum over the B blocks of the sums over each block's L coordinates. -/
theorem sum_blocks (B L : Nat) (f : Fin (B * L) → EReal) :
    ∑ k : Fin (B * L), f k = ∑ b : Fin B, ∑ j : Fin L, f ⟨b.val * L + j.val, block_lt b j⟩ :=
  calc ∑ k : Fin (B * L), f k = ∑ x : Fin B × Fin L, f (finProdFinEquiv x) := (Equiv.sum_comp finProdFinEquiv f).symm
    _ = ∑ b : Fin B, ∑ j : Fin L, f (finProdFinEquiv (b, j)) := Fintype.sum_prod_type _
    _ = ∑ b : Fin B, ∑ j : Fin L, f ⟨b.val * L + j.val, block_lt b j⟩ :=
      Finset.sum_congr rfl fun b _ => Finset.sum_congr rfl fun j _ => congrArg f (Fin.ext (by
        show j.val + L * b.val = b.val * L + j.val
        rw [Nat.add_comm, Nat.mul_comm]))

/-- 8192 coordinates as four blocks of 2048. -/
theorem sum_blocks_8192 (f : Fin 8192 → EReal) :
    ∑ k : Fin 8192, f k = ∑ b : Fin 4, ∑ j : Fin 2048, f ⟨b.val * 2048 + j.val, by have := b.isLt; have := j.isLt; omega⟩ :=
  sum_blocks 4 2048 f

/-- Four terms added one after another onto zero are the sum of the four. -/
theorem acc4 (g : Fin 4 → EReal) : (((0 + g 0) + g 1) + g 2) + g 3 = ∑ b : Fin 4, g b := by
  rw [Fin.sum_univ_four, zero_add]

/-! ## A transpose at an entry -/

/-- A matrix transposed reads, at (p, q), the operand at (q, p). -/
theorem transpose_apply2 {α : Type} {n0 n1 : Nat} (v : (⟨2, ![n0, n1]⟩ : Shape).Idx → α)
    (h : (⟨2, ![n0, n1]⟩ : Shape).Transposes [1, 0] ⟨2, ![n1, n0]⟩) (p : Fin n1) (q : Fin n0) :
    transpose ⟨2, ![n1, n0]⟩ [1, 0] v h (ix2 p q) = v (ix2 q p) :=
  transpose_apply _ v h _ _ fun c => match c with | ⟨0, _⟩ => rfl | ⟨1, _⟩ => rfl

/-! ## The pointwise pieces at an entry -/

section Pointwise
variable {s : Shape} {φ : FTy}

/-- A narrowing of the format reads the operand's entry: on extended reals it changes nothing. -/
theorem truncf_at {ψ : FTy} (v : FVec Ideal s φ) (h : ψ.bits < φ.bits) (i : s.Idx) :
    (truncf ψ v h : FVec Ideal s ψ) i = v i := rfl

/-- A cast from a shape to itself reads the operand's entry. -/
theorem shapeCast_at {α : Type} (v : s.Idx → α) (h : s.ShapeCasts s) (i : s.Idx) : shapeCast s v h i = v i := by
  rw [shapeCast_self]

/-- The zero word broadcast to an array reads the extended real zero everywhere. -/
theorem zeroSplat_at (i : s.Idx) : broadcast s (Scalar.ofBits (F := Ideal) .f32 0x00000000#32) i = 0 :=
  Ideal.ofBits_zero_f32

/-- A maximum against the broadcast zero word is the maximum of the entry and zero. -/
theorem relu_splat_at (v : FVec Ideal s .f32) (i : s.Idx) :
    maximumf v (broadcast s (Scalar.ofBits (F := Ideal) .f32 0x00000000#32)) i = max (v i) 0 := by
  rw [maximumf_apply, zeroSplat_at]

/-- A maximum against the rank-0 zero constant spread over an array is the maximum of the entry and zero. -/
theorem relu_spread_at (v : FVec Ideal s .f32) (h : (⟨0, ![]⟩ : Shape).BroadcastsInDim s ![]) (i : s.Idx) :
    maximumf v (broadcastInDim s ![] h (constant (F := Ideal) ⟨0, ![]⟩ .f32 0x00000000#32)) i = max (v i) 0 := by
  rw [maximumf_apply]
  show max (v i) (Ideal.ofBits .f32 0x00000000#32) = max (v i) 0
  rw [Ideal.ofBits_zero_f32]

/-- A sum of two arrays reads the sum of the entries. -/
theorem addf_at (a b : FVec Ideal s φ) (i : s.Idx) : addf a b i = a i + b i := rfl

end Pointwise

end Cert.Lib.Dot

end
-- ==== Proof.KiLin0Value.lean ====
/-
  Region 0 read at the ideal values: the dense layer h = x · Wᵀ as one array.

  The body's result block is the matrix product of the point's row block with the weight block: a narrowing of the format
  changes nothing on the extended reals, and a product accumulated into the zero matrix is the plain sum over the
  contraction coordinate. Point t is handed rows 2048·t … 2048·t + 2047 of the activations and the whole weight matrix, and
  writes back rows 2048·t … 2048·t + 2047 of the result; row r of the result is therefore written by point r / 2048, and the
  four write-backs leave the whole product: entry (r, q) is the sum over k of x (r, k) · Wᵀ (k, q).
-/
import proofs.«124142_j80221399155047_1_alg».proof.Proof.KiLin0
import proofs.«124142_j80221399155047_1_alg».proof.Proof.LibPlainMatmul
import proofs.«124142_j80221399155047_1_alg».proof.Proof.LibDot
import Idealize.ShloMosaic.Lib.Pipeline.Value
import Idealize.ShloMosaic.Lib.ValueIdx

noncomputable section

open scoped BigOperators
open Idealize.ShloMosaic Idealize.ShloMosaic.TcCoe Idealize.ShloMosaic.ValueIdx
open Idealize.ShloMosaic.Pipeline (Dat)

namespace Cert.KernelIdeal.Lin0V

open Cert.KernelIdeal Cert.KernelIdeal.Gen

/-! ## One block: the payload is the product -/

/-- The offsets of a whole block are zero on both axes. -/
theorem zeroOffsets : (![0, 0] : Fin 2 → Nat) = fun _ => 0 := funext fun a => by fin_cases a <;> rfl

/-- The body's payload at entry (p, q): the sum over k of the row block's (p, k) times the weight block's (k, q). -/
theorem payload_at (x0 : Vec Ideal S2048x256 .f32) (x1 : Vec Ideal S256x256 .f32) (p : Fin 2048) (q : Fin 256) :
    k0_pay1 (F := Ideal) x0 x1 (ix2 p q) = ∑ k : Fin 256, x0 (ix2 p k) * x1 (ix2 k q) := by
  unfold k0_pay1
  simp only [matmul, Cert.Lib.Dot.truncf_at]
  rw [Cert.Lib.PlainMatmul.apply _ rfl rfl rfl rfl rfl rfl]
  simp only [Cert.Lib.Dot.truncf_at, Cert.Lib.Dot.shapeCast_at]

/-- What the body leaves in the result's block, at entry (p, q): the same sum. -/
theorem blockOut_at (x0 : Vec Ideal S2048x256 .f32) (x1 : Vec Ideal S256x256 .f32) (p : Fin 2048) (q : Fin 256) :
    Lin0.blockOut (F := Ideal) x0 x1 (ix2 p q) = ∑ k : Fin 256, x0 (ix2 p k) * x1 (ix2 k q) := by
  unfold Lin0.blockOut
  rw [View.canon_unit_zero zeroOffsets]
  simp only [View.ld_unit_zero (S := S2048x256) zeroOffsets, View.ld_unit_zero (S := S256x256) zeroOffsets]
  exact payload_at x0 x1 p q

/-! ## The four blocks: the array is the product -/

variable (V : (c : Dev nD) → (b : Ref sig .tc) → Buf (Elt Ideal) ((c : Thread nD τ).loc b))

/-- The block indices at grid point t: the activations' and the result's row block is block t, their one column block is
    block 0; the weight matrix is one block. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row block of point t, at (y₀, y₁), is the activations' entry (2048·t + y₀, y₁). -/
theorem rows_read (c : Dev nD) (t : Fin cfg0.N) (y : S2048x256.Idx) (i : S8192x256.Idx)
    (h0 : (i 0).val = 2048 * t.val + (y 0).val) (h1 : (i 1).val = (y 1).val) :
    (Lin0.iblk V c 0 t : Vec Ideal S2048x256 .f32) y
      = (V c (Pipeline.arrRef spec0 0) : S8192x256.Idx → Elt Ideal .f32) i := by
  obtain ⟨e0, e1, -⟩ := blockIndex t
  unfold Lin0.iblk
  rw [View.read_apply]
  show V c (Pipeline.arrRef spec0 0) _ = V c (Pipeline.arrRef spec0 0) _
  congr 1
  funext a; apply Fin.ext
  match a with
  | ⟨0, _⟩ => show win0_0.index t (0 : Fin 2) * 2048 + 1 * (y 0).val = (i 0).val; omega
  | ⟨1, _⟩ => show win0_0.index t (1 : Fin 2) * 256 + 1 * (y 1).val = (i 1).val; omega

/-- The weight block of every point is the whole transposed weight matrix. -/
theorem weight_read (c : Dev nD) (t : Fin cfg0.N) (y i : S256x256.Idx)
    (h0 : (i 0).val = (y 0).val) (h1 : (i 1).val = (y 1).val) :
    (Lin0.iblk V c 1 t : Vec Ideal S256x256 .f32) y
      = (V c (Pipeline.arrRef spec0 1) : S256x256.Idx → Elt Ideal .f32) i := by
  obtain ⟨-, -, e0, e1, -⟩ := blockIndex t
  unfold Lin0.iblk
  rw [View.read_apply]
  show V c (Pipeline.arrRef spec0 1) _ = V c (Pipeline.arrRef spec0 1) _
  congr 1
  funext a; apply Fin.ext
  match a with
  | ⟨0, _⟩ => show win0_1.index t (0 : Fin 2) * 256 + 1 * (y 0).val = (i 0).val; omega
  | ⟨1, _⟩ => show win0_1.index t (1 : Fin 2) * 256 + 1 * (y 1).val = (i 1).val; omega

/-- The dense layer as one array: entry (r, q) is the sum over k of x (r, k) · Wᵀ (k, q). -/
abbrev product (X : Vec Ideal S8192x256 .f32) (Wt : Vec Ideal S256x256 .f32) : Vec Ideal S8192x256 .bf16 :=
  fun i => ∑ k : Fin 256, X (ix2 (i 0) k) * Wt (ix2 k (i 1))

/-- Entry (p, q) of the result's block at point t is row 2048·t + p of the result, -/
theorem out_row (t : Fin cfg0.N) (p : Fin 2048) (q : Fin 256) :
    ((((cfg0.win 2).blk t).view.emb (ix2 p q) : S8192x256.Idx) 0).val = 2048 * t.val + p.val := by
  obtain ⟨-, -, -, -, e0, -⟩ := blockIndex t
  show win0_2.index t (0 : Fin 2) * 2048 + 1 * p.val = _
  omega

/-- and column q. -/
theorem out_col (t : Fin cfg0.N) (p : Fin 2048) (q : Fin 256) :
    ((((cfg0.win 2).blk t).view.emb (ix2 p q) : S8192x256.Idx) 1).val = q.val := by
  obtain ⟨-, -, -, -, -, e1⟩ := blockIndex t
  show win0_2.index t (1 : Fin 2) * 256 + 1 * q.val = _
  omega

/-- What point t writes back is its block of the product. -/
theorem writeback_eq (c : Dev nD) (t : Fin cfg0.N) :
    (Lin0.dat V c).flushed 2 t = ((cfg0.win 2).blk t).view.read (Elt Ideal)
      (product (V c (Pipeline.arrRef spec0 0)) (V c (Pipeline.arrRef spec0 1))) := by
  show (cfg0.win 2).cut (grid0.coords t) ((Lin0.dat V c).after 2 t) = _
  rw [Lin0.after_2]
  funext j
  obtain ⟨p, q, rfl⟩ : ∃ (p : Fin 2048) (q : Fin 256), j = ix2 p q := ⟨j 0, j 1, eq_ix2 j⟩
  refine (blockOut_at (Lin0.iblk V c 0 t) (Lin0.iblk V c 1 t) p q).trans ?_
  rw [View.read_apply]
  show ∑ k : Fin 256, _ = ∑ k : Fin 256, _
  refine Finset.sum_congr rfl fun k _ => ?_
  exact congrArg₂ (· * ·)
    (rows_read V c t (ix2 p k) (ix2 _ k) (out_row t p q) rfl)
    (weight_read V c t (ix2 k q) (ix2 k _) rfl (out_col t p q))

/-- Row r of the result lies in the block of point r / 2048. -/
theorem rows_cover (i : S8192x256.Idx) :
    ∃ t : Fin cfg0.N, (cfg0.win 2).flush t = true ∧ i ∈ ((cfg0.win 2).blk t).view.set := by
  have hi0 : (i 0).val < 8192 := (i 0).isLt
  have hi1 : (i 1).val < 256 := (i 1).isLt
  obtain ⟨t, ht⟩ : ∃ t : Fin cfg0.N, t.val = (i 0).val / 2048 :=
    ⟨⟨(i 0).val / 2048, by rw [show cfg0.N = 4 from N_0]; omega⟩, rfl⟩
  obtain ⟨-, -, -, -, e0, e1⟩ := blockIndex t
  refine ⟨t, flush0_2 t, ?_⟩
  show i ∈ ((View.whole (Pipeline.arrRef spec0 2)).slice (win0_2.rect t)).set
  rw [View.set_slice_whole, Rect.mem_set_unit]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 256 ≤ (i 1).val ∧ (i 1).val < win0_2.index t (1 : Fin 2) * 256 + 256
    omega

/-- The array the four write-backs leave: entry (r, q) is the sum over k of x (r, k) · Wᵀ (k, q). -/
theorem final_rows (c : Dev nD) (X : Vec Ideal S8192x256 .f32) (Wt : Vec Ideal S256x256 .f32)
    (hX : V c (Pipeline.arrRef spec0 0) = X) (hW : V c (Pipeline.arrRef spec0 1) = Wt) :
    ((Lin0.dat (F := Ideal) V c).arrAt 2 cfg0.N : Vec Ideal S8192x256 .bf16)
      = fun i => ∑ k : Fin 256, X (ix2 (i 0) k) * Wt (ix2 k (i 1)) := by
  subst hX hW
  exact (Lin0.dat V c).arrAt_eq_of_cover 2 (product (V c (Pipeline.arrRef spec0 0)) (V c (Pipeline.arrRef spec0 1)))
    (fun t _ => writeback_eq V c t) rows_cover

end Cert.KernelIdeal.Lin0V

end
-- ==== Proof.KiAgg1Pay.lean ====
import proofs.«124142_j80221399155047_1_alg».proof.Proof.Gen.KernelIdeal.Skeleton
import proofs.«124142_j80221399155047_1_alg».proof.Proof.LibPlainMatmul
import proofs.«124142_j80221399155047_1_alg».proof.Proof.LibDot

/-!
# The aggregation call (region 1): its three values at one entry

Over the extended reals every operation of the aggregation's body is exact and a change of format is
the identity.  So, entry by entry: the value the accumulator is reset to is zero; one step adds to the
accumulator's entry (p, q) the inner product of row p of the adjacency block with column q of the
feature block, 2048 terms; and the value stored into the output block is the positive part of the
accumulator's entry.
-/

noncomputable section

namespace Cert.KernelIdeal.Agg1V

open Cert.KernelIdeal Cert.KernelIdeal.Gen
open Idealize.ShloMosaic Idealize.ShloMosaic.ValueIdx
open scoped BigOperators

/-- The reset value: zero at every entry. -/
theorem reset_at (p : Fin 1024) (q : Fin 256) : k1_pay1 (F := Ideal) (ix2 p q) = 0 := by
  unfold k1_pay1
  exact (Cert.Lib.Dot.shapeCast_at _ _ _).trans (Cert.Lib.Dot.zeroSplat_at _)

/-- One accumulation step at entry (p, q): the accumulator's entry plus the inner product of row p of
    the adjacency block with column q of the feature block. -/
theorem step_at (acc : Vec Ideal S1024x256 .f32) (a : Vec Ideal S1024x2048 .bf16) (h : Vec Ideal S2048x256 .bf16)
    (p : Fin 1024) (q : Fin 256) :
    k1_pay2 (F := Ideal) acc a h (ix2 p q)
      = (acc (ix2 p q) : EReal) + ∑ j : Fin 2048, (a (ix2 p j) : EReal) * (h (ix2 j q) : EReal) := by
  unfold k1_pay2
  refine (Cert.Lib.Dot.shapeCast_at _ _ _).trans ?_
  refine (Cert.Lib.Dot.addf_at _ _ _).trans ?_
  refine congrArg (fun z : EReal => (acc (ix2 p q) : EReal) + z) ?_
  refine (Cert.Lib.PlainMatmul.apply dot_S1024x2048_S2048x256_S1024x256_1_0_0_1_n_n rfl rfl rfl rfl rfl rfl none _ _ p q).trans ?_
  refine Finset.sum_congr rfl fun j _ => ?_
  rw [Cert.Lib.Dot.shapeCast_at, Cert.Lib.Dot.shapeCast_at]

/-- The stored value: the positive part of the accumulator, entry by entry. -/
theorem relu_at (acc : Vec Ideal S1024x256 .f32) (i : S1024x256.Idx) :
    k1_pay3 (F := Ideal) acc i = max (acc i : EReal) 0 := by
  unfold k1_pay3
  exact Cert.Lib.Dot.relu_splat_at _ _

end Cert.KernelIdeal.Agg1V

end
-- ==== Proof.KiAgg1Value.lean ====
import proofs.«124142_j80221399155047_1_alg».proof.Proof.KiAgg1
import proofs.«124142_j80221399155047_1_alg».proof.Proof.KiAgg1Pay
import Idealize.ShloMosaic.Lib.Pipeline.Value

/-!
# The aggregation call (region 1): what its result array holds

The grid is 8 row blocks by 4 column steps, walked row-major: position `t` works on row block `t / 4`
at column step `t % 4`.  At that position the body reads the 1024 × 2048 block (t / 4, t % 4) of the
adjacency and the 2048 × 256 block (t % 4) of the features, and adds their product into the accumulator,
which step 0 has reset to zero.  After step 3 the accumulator's entry (p, q) is therefore

  0 + Σ_{j<2048} A(r, j)·H(j, q) + Σ_{j<2048} A(r, 2048 + j)·H(2048 + j, q) + … (four terms),   r = 1024·(t / 4) + p,

which is the sum over all 8192 nodes n of A(r, n)·H(n, q): a finite sum regrouped, with no side condition
over the extended reals.  Step 3 stores the positive part of it into the output block, and that block is
written back to rows 1024·(t / 4) … 1024·(t / 4) + 1023 of the result.  The eight write-backs cover every
row, so the result array is, index by index, the positive part of the adjacency times the features.
-/

set_option maxRecDepth 16384

noncomputable section

namespace Cert.KernelIdeal.Agg1V

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

-- the TensorCore's buffer contents when the region is entered, at the ideal values
variable (V : (c : Dev nD) → (b : Ref sig .tc) → Buf (Elt Ideal) ((c : Thread nD τ).loc b))

/-! ## Names of literal type for the arrays, the blocks and the running contents -/

/-- The adjacency as the region finds it. -/
abbrev adjacency (c : Dev nD) : Vec Ideal S8192x8192 .bf16 := V c (Pipeline.arrRef spec1 0)
/-- The features as the region finds them. -/
abbrev features (c : Dev nD) : Vec Ideal S8192x256 .bf16 := V c (Pipeline.arrRef spec1 1)
/-- The adjacency block position `t` reads. -/
abbrev adjBlock (c : Dev nD) (t : Fin cfg1.N) : Vec Ideal S1024x2048 .bf16 := Agg1.iblk V c 0 t
/-- The feature block position `t` reads. -/
abbrev featBlock (c : Dev nD) (t : Fin cfg1.N) : Vec Ideal S2048x256 .bf16 := Agg1.iblk V c 1 t
/-- The accumulator after position `n`. -/
abbrev accAfter (c : Dev nD) (n : ℕ) (hn : n < cfg1.N) : Vec Ideal S1024x256 .f32 := (Agg1.outsAt V c n hn).2
/-- The output block's buffer after position `n`. -/
abbrev outAfter (c : Dev nD) (n : ℕ) (hn : n < cfg1.N) : Vec Ideal S1024x256 .f32 := (Agg1.outsAt V c n hn).1

/-- The closed form: the positive part of the adjacency times the features, index by index. -/
abbrev gathered (A : Vec Ideal S8192x8192 .bf16) (H : Vec Ideal S8192x256 .bf16) : Vec Ideal S8192x256 .f32 :=
  fun i => max (∑ n : Fin 8192, A (ix2 (i 0) n) * H (ix2 n (i 1))) 0

/-! ## Which blocks a position works on -/

/-- Row-major walk of the 8 × 4 grid: the adjacency's block is (t / 4, t % 4), the features' block is
    (t % 4, 0), the result's block is (t / 4, 0). -/
theorem block_indices : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0 :=
  (by decide +kernel : ∀ t : Fin grid1.N, _)

/-- Entry (p, j) of the adjacency block at `t` is entry (1024·(t / 4) + p, 2048·(t % 4) + j) of the adjacency. -/
theorem adjBlock_at (c : Dev nD) (t : Fin cfg1.N) (p : Fin 1024) (j : Fin 2048) (r n : Fin 8192)
    (hr : r.val = t.val / 4 * 1024 + p.val) (hn : n.val = t.val % 4 * 2048 + j.val) :
    adjBlock V c t (ix2 p j) = adjacency V c (ix2 r n) := by
  obtain ⟨e0, e1, -⟩ := block_indices t
  show V c (Pipeline.arrRef spec1 0) (((cfg1.win 0).blk t).view.emb (ix2 p j)) = V c (Pipeline.arrRef spec1 0) (ix2 r n)
  refine congrArg (V c (Pipeline.arrRef spec1 0)) (funext fun a => Fin.ext ?_)
  match a with
  | ⟨0, _⟩ => show win1_0.index t (0 : Fin 2) * 1024 + 1 * p.val = r.val; rw [e0, hr]; omega
  | ⟨1, _⟩ => show win1_0.index t (1 : Fin 2) * 2048 + 1 * j.val = n.val; rw [e1, hn]; omega

/-- Entry (j, q) of the feature block at `t` is entry (2048·(t % 4) + j, q) of the features. -/
theorem featBlock_at (c : Dev nD) (t : Fin cfg1.N) (j : Fin 2048) (q : Fin 256) (n : Fin 8192)
    (hn : n.val = t.val % 4 * 2048 + j.val) :
    featBlock V c t (ix2 j q) = features V c (ix2 n q) := by
  obtain ⟨-, -, e2, e3, -⟩ := block_indices t
  show V c (Pipeline.arrRef spec1 1) (((cfg1.win 1).blk t).view.emb (ix2 j q)) = V c (Pipeline.arrRef spec1 1) (ix2 n q)
  refine congrArg (V c (Pipeline.arrRef spec1 1)) (funext fun a => Fin.ext ?_)
  match a with
  | ⟨0, _⟩ => show win1_1.index t (0 : Fin 2) * 2048 + 1 * j.val = n.val; rw [e2, hn]; omega
  | ⟨1, _⟩ => show win1_1.index t (1 : Fin 2) * 256 + 1 * q.val = q.val; rw [e3]; omega

/-! ## One step, over the arrays -/

/-- Column step `b`'s share of entry (r, q) of the product: the 2048 terms of nodes 2048·b … 2048·b + 2047. -/
def stepTerm (A : Vec Ideal S8192x8192 .bf16) (H : Vec Ideal S8192x256 .bf16) (r : Fin 8192) (q : Fin 256) (b : Fin 4) : EReal :=
  ∑ j : Fin 2048, (fun n : Fin 8192 => (A (ix2 r n) : EReal) * (H (ix2 n q) : EReal))
    ⟨b.val * 2048 + j.val, by have := b.isLt; have := j.isLt; omega⟩

/-- One accumulation step at position `t`, at entry (p, q): the accumulator's entry gains column step
    `t % 4`'s share of entry (1024·(t / 4) + p, q) of the product. -/
theorem step_over_arrays (c : Dev nD) (t : Fin cfg1.N) (acc : Vec Ideal S1024x256 .f32) (p : Fin 1024) (q : Fin 256)
    (r : Fin 8192) (b : Fin 4) (hr : r.val = t.val / 4 * 1024 + p.val) (hb : b.val = t.val % 4) :
    k1_pay2 (F := Ideal) acc (adjBlock V c t) (featBlock V c t) (ix2 p q)
      = (acc (ix2 p q) : EReal) + stepTerm (adjacency V c) (features V c) r q b := by
  refine (step_at acc (adjBlock V c t) (featBlock V c t) p q).trans ?_
  refine congrArg (fun z : EReal => (acc (ix2 p q) : EReal) + z) ?_
  unfold stepTerm
  refine Finset.sum_congr rfl fun j _ => ?_
  exact congrArg₂ (fun x y : EReal => x * y)
    (adjBlock_at V c t p j r ⟨b.val * 2048 + j.val, by have := b.isLt; have := j.isLt; omega⟩ hr (by show b.val * 2048 + j.val = _; rw [hb]))
    (featBlock_at V c t j q ⟨b.val * 2048 + j.val, by have := b.isLt; have := j.isLt; omega⟩ (by show b.val * 2048 + j.val = _; rw [hb]))

/-! ## The accumulation over the four column steps -/

/-- After a reset position: zero plus the first share. -/
theorem acc_reset (c : Dev nD) (n : ℕ) (hn : n < cfg1.N) (h0 : n % 4 = 0) (p : Fin 1024) (q : Fin 256)
    (r : Fin 8192) (b : Fin 4) (hr : r.val = n / 4 * 1024 + p.val) (hb : b.val = n % 4) :
    accAfter V c n hn (ix2 p q) = 0 + stepTerm (adjacency V c) (features V c) r q b :=
  (congrFun (Agg1.scratch_first (F := Ideal) V c ⟨n, hn⟩ h0) (ix2 p q)).trans
    ((step_over_arrays V c ⟨n, hn⟩ (k1_pay1 (F := Ideal)) p q r b hr hb).trans
      (congrArg (fun z : EReal => z + stepTerm (adjacency V c) (features V c) r q b) (reset_at p q)))

/-- After any other position: what the position before left plus this step's share. -/
theorem acc_next (c : Dev nD) (n : ℕ) (hn : n < cfg1.N) (h0 : n % 4 ≠ 0) (p : Fin 1024) (q : Fin 256)
    (r : Fin 8192) (b : Fin 4) (hr : r.val = n / 4 * 1024 + p.val) (hb : b.val = n % 4) :
    accAfter V c n hn (ix2 p q)
      = accAfter V c (n - 1) (Nat.lt_of_le_of_lt (Nat.sub_le _ _) hn) (ix2 p q) + stepTerm (adjacency V c) (features V c) r q b :=
  (congrFun (Agg1.scratch_next (F := Ideal) V c ⟨n, hn⟩ h0) (ix2 p q)).trans
    (step_over_arrays V c ⟨n, hn⟩ (accAfter V c (n - 1) (Nat.lt_of_le_of_lt (Nat.sub_le _ _) hn)) p q r b hr hb)

/-- After a last step the accumulator's entry (p, q) is entry (1024·(n / 4) + p, q) of the adjacency times
    the features: the four shares regrouped into one sum over the 8192 nodes. -/
theorem acc_last (c : Dev nD) (n : ℕ) (hn : n < cfg1.N) (h3 : n % 4 = 3) (p : Fin 1024) (q : Fin 256)
    (r : Fin 8192) (hr : r.val = n / 4 * 1024 + p.val) :
    accAfter V c n hn (ix2 p q) = ∑ k : Fin 8192, (adjacency V c (ix2 r k) : EReal) * (features V c (ix2 k q) : EReal) := by
  rw [acc_next V c n hn (by omega) p q r 3 hr (by show 3 = n % 4; omega),
    acc_next V c (n - 1) _ (by omega) p q r 2 (by omega) (by show 2 = (n - 1) % 4; omega),
    acc_next V c (n - 1 - 1) _ (by omega) p q r 1 (by omega) (by show 1 = (n - 1 - 1) % 4; omega),
    acc_reset V c (n - 1 - 1 - 1) _ (by omega) p q r 0 (by omega) (by show 0 = (n - 1 - 1 - 1) % 4; omega)]
  exact (Cert.Lib.Dot.acc4 (stepTerm (adjacency V c) (features V c) r q)).trans
    (Cert.Lib.Dot.sum_blocks_8192 (fun k : Fin 8192 => (adjacency V c (ix2 r k) : EReal) * (features V c (ix2 k q) : EReal))).symm

/-- After a last step the output block's entry (p, q) is the positive part of that sum. -/
theorem out_last_at (c : Dev nD) (n : ℕ) (hn : n < cfg1.N) (h3 : n % 4 = 3) (p : Fin 1024) (q : Fin 256)
    (r : Fin 8192) (hr : r.val = n / 4 * 1024 + p.val) :
    outAfter V c n hn (ix2 p q)
      = max (∑ k : Fin 8192, (adjacency V c (ix2 r k) : EReal) * (features V c (ix2 k q) : EReal)) 0 :=
  (congrFun (Agg1.out_last (F := Ideal) V c ⟨n, hn⟩ h3) (ix2 p q)).trans
    ((relu_at (accAfter V c n hn) (ix2 p q)).trans
      (congrArg (fun z : EReal => max z 0) (acc_last V c n hn h3 p q r hr)))

/-! ## The write-backs and the result array -/

/-- What a position that writes back writes: its block of the closed form. -/
theorem flushed_block (c : Dev nD) (t : Fin cfg1.N) (hf : (cfg1.win 2).flush t = true) :
    (Agg1.dat (F := Ideal) V c).flushed 2 t
      = ((cfg1.win 2).blk t).view.read (Elt Ideal) (gathered (adjacency V c) (features V c)) := by
  have h3 : t.val % 4 = 3 := (flush1_2 t).mp hf
  have ht : t.val < 32 := lt_of_lt_of_eq t.isLt (show cfg1.N = 32 from N_1)
  obtain ⟨-, -, -, -, e4, e5⟩ := block_indices t
  show (cfg1.win 2).cut (grid1.coords t) ((Agg1.dat (F := Ideal) V c).after 2 t) = _
  rw [Agg1.after_2]
  funext y
  have hy0 : (y 0).val < 1024 := (y 0).isLt
  have hy1 : (y 1).val < 256 := (y 1).isLt
  have ey : (cfg1.win 2).xinj (grid1.coords t) y = ix2 (⟨(y 0).val, hy0⟩ : Fin 1024) (⟨(y 1).val, hy1⟩ : Fin 256) :=
    funext fun a => match a with | ⟨0, _⟩ => rfl | ⟨1, _⟩ => rfl
  have er : ((cfg1.win 2).blk t).view.emb y
      = ix2 (⟨t.val / 4 * 1024 + (y 0).val, by omega⟩ : Fin 8192) (⟨(y 1).val, hy1⟩ : Fin 256) :=
    funext fun a => Fin.ext (by
      match a with
      | ⟨0, _⟩ => show win1_2.index t (0 : Fin 2) * 1024 + 1 * (y 0).val = t.val / 4 * 1024 + (y 0).val; rw [e4]; omega
      | ⟨1, _⟩ => show win1_2.index t (1 : Fin 2) * 256 + 1 * (y 1).val = (y 1).val; rw [e5]; omega)
  show outAfter V c t.val t.isLt ((cfg1.win 2).xinj (grid1.coords t) y)
    = gathered (adjacency V c) (features V c) (((cfg1.win 2).blk t).view.emb y)
  rw [ey, er]
  exact out_last_at V c t.val t.isLt h3 ⟨(y 0).val, hy0⟩ ⟨(y 1).val, hy1⟩ ⟨t.val / 4 * 1024 + (y 0).val, by omega⟩ rfl

/-- Every row of the result lies in the block some last step writes back: row `r` in that of row block `r / 1024`. -/
theorem rows_covered (i : S8192x256.Idx) :
    ∃ t : Fin cfg1.N, (cfg1.win 2).flush t = true ∧ i ∈ ((cfg1.win 2).blk t).view.set := by
  have hN : cfg1.N = 32 := N_1
  have hi0 : (i 0).val < 8192 := (i 0).isLt
  have hi1 : (i 1).val < 256 := (i 1).isLt
  obtain ⟨t, htv⟩ : ∃ t : Fin cfg1.N, t.val = 4 * ((i 0).val / 1024) + 3 :=
    ⟨⟨4 * ((i 0).val / 1024) + 3, by rw [hN]; omega⟩, rfl⟩
  obtain ⟨-, -, -, -, e4, e5⟩ := block_indices t
  refine ⟨t, (flush1_2 t).mpr (by rw [htv]; omega), ?_⟩
  show i ∈ ((View.whole (Pipeline.arrRef spec1 2)).slice (win1_2.rect t)).set
  rw [View.set_slice_whole, Rect.mem_set_unit]
  intro a
  match a with
  | ⟨0, _⟩ =>
    show win1_2.index t (0 : Fin 2) * 1024 ≤ (i 0).val ∧ (i 0).val < win1_2.index t (0 : Fin 2) * 1024 + 1024
    rw [e4, htv]; omega
  | ⟨1, _⟩ =>
    show win1_2.index t (1 : Fin 2) * 256 ≤ (i 1).val ∧ (i 1).val < win1_2.index t (1 : Fin 2) * 256 + 256
    rw [e5]; omega

/-- THE RESULT ARRAY after the region: the positive part of the adjacency times the features, index by index. -/
theorem final_rows (c : Dev nD) (A : Vec Ideal S8192x8192 .bf16) (H : Vec Ideal S8192x256 .bf16)
    (hA : V c (Pipeline.arrRef spec1 0) = A) (hH : V c (Pipeline.arrRef spec1 1) = H) :
    ((Agg1.dat (F := Ideal) V c).arrAt 2 cfg1.N : Vec Ideal S8192x256 .f32)
      = fun i => max (∑ n : Fin 8192, A (ix2 (i 0) n) * H (ix2 n (i 1))) 0 := by
  subst hA hH
  exact (Agg1.dat (F := Ideal) V c).arrAt_eq_of_cover 2 (gathered (adjacency V c) (features V c))
    (fun t hf => flushed_block V c t hf) rows_covered

end Cert.KernelIdeal.Agg1V

end
-- ==== Proof.Spec.lean ====
/-
  The two layer functions of the graph network, over the extended reals, index by index.

  `dense X Wt` is the product of the activations `X` (8192 × 256) with a weight matrix already transposed (`Wt`, 256 × 256):
  entry (p, q) is the sum over k of X (p, k) · Wt (k, q). `gatherRelu A H` aggregates over the graph and rectifies: entry (p, q)
  is the larger of 0 and the sum over all 8192 nodes k of A (p, k) · H (k, q). One layer of the network is
  `gatherRelu A (dense X Wt)`; the network is three layers with one adjacency `A`. Both programs are shown to compute this.
-/
import Idealize.ShloMosaic.PureOps.Ideal
import Idealize.ShloMosaic.Lib.ValueIdx

noncomputable section

open scoped BigOperators
open Idealize.ShloMosaic Idealize.ShloMosaic.ValueIdx

namespace Cert.Spec

/-- The activations' shape, a weight matrix's and the adjacency's. -/
abbrev SX : Shape := ⟨2, ![8192, 256]⟩
abbrev SW : Shape := ⟨2, ![256, 256]⟩
abbrev SA : Shape := ⟨2, ![8192, 8192]⟩

/-- Activations times a transposed weight matrix. -/
def dense (X : SX.Idx → EReal) (Wt : SW.Idx → EReal) : SX.Idx → EReal :=
  fun i => ∑ k : Fin 256, X (ix2 (i 0) k) * Wt (ix2 k (i 1))

/-- Aggregation over all nodes, then the rectifier. -/
def gatherRelu (A : SA.Idx → EReal) (H : SX.Idx → EReal) : SX.Idx → EReal :=
  fun i => max (∑ k : Fin 8192, A (ix2 (i 0) k) * H (ix2 k (i 1))) 0

/-- A weight matrix read transposed. -/
def transposed (w : SW.Idx → EReal) : SW.Idx → EReal := fun i => w (ix2 (i 1) (i 0))

/-- One layer. -/
def layer (A : SA.Idx → EReal) (X : SX.Idx → EReal) (Wt : SW.Idx → EReal) : SX.Idx → EReal :=
  gatherRelu A (dense X Wt)

/-- The three layers over one adjacency, the weights given untransposed. -/
def net (A : SA.Idx → EReal) (x : SX.Idx → EReal) (w0 w1 w2 : SW.Idx → EReal) : SX.Idx → EReal :=
  layer A (layer A (layer A x (transposed w0)) (transposed w1)) (transposed w2)

end Cert.Spec

end
-- ==== Proof.KiValue.lean ====
/-
  What the idealized kernel program computes: the result array at the end of its run is the three-layer network of the
  specification, applied to the argument arrays.

  The run (the chain of contents `W0 … W11`) ends with the result array at what the last aggregation region's write-backs
  leave. Reading the chain backwards: an aggregation region leaves `gatherRelu` of the adjacency and of the activations the
  dense region before it left; a dense region leaves `dense` of the activations it was handed and of the transposed weight
  matrix the host line before it wrote; the adjacency every aggregation region stages is the one array the host prefix
  computed, rounded to bf16, which at the ideal values is the array itself; and no item in between touches an array a later
  region reads.
-/
import proofs.«124142_j80221399155047_1_alg».proof.Proof.KiRun
import proofs.«124142_j80221399155047_1_alg».proof.Proof.KiHost
import proofs.«124142_j80221399155047_1_alg».proof.Proof.KiLin0Value
import proofs.«124142_j80221399155047_1_alg».proof.Proof.KiLin2Value
import proofs.«124142_j80221399155047_1_alg».proof.Proof.KiLin4Value
import proofs.«124142_j80221399155047_1_alg».proof.Proof.KiAgg1Value
import proofs.«124142_j80221399155047_1_alg».proof.Proof.KiAgg3Value
import proofs.«124142_j80221399155047_1_alg».proof.Proof.KiAgg5Value
import proofs.«124142_j80221399155047_1_alg».proof.Proof.Spec
import proofs.«124142_j80221399155047_1_alg».proof.Proof.LibDot

set_option maxRecDepth 16384

noncomputable section

open scoped BigOperators

namespace Cert.KernelIdeal.Net

open Cert.KernelIdeal Cert.KernelIdeal.Gen Cert.KernelIdeal.Run
open Idealize.ShloMosaic Idealize.ShloMosaic.TcCoe Idealize.ShloMosaic.ValueIdx Idealize.SL.Sem

variable (m : (ℓ : Loc nD τ sig) → Buf (Elt Ideal) ℓ)

/-- The adjacency of the specification: the array the host prefix computes. -/
abbrev A : Spec.SA.Idx → EReal := Host.adj (F := Ideal)

/-- The four argument arrays on core `c`. -/
abbrev x0 (c : Dev nD) : Spec.SX.Idx → EReal := m ((c.tc : Thread nD τ).loc main_arg0)
abbrev w0 (c : Dev nD) : Spec.SW.Idx → EReal := m ((c.tc : Thread nD τ).loc main_arg1)
abbrev w1 (c : Dev nD) : Spec.SW.Idx → EReal := m ((c.tc : Thread nD τ).loc main_arg2)
abbrev w2 (c : Dev nD) : Spec.SW.Idx → EReal := m ((c.tc : Thread nD τ).loc main_arg3)

/-- The bf16 adjacency, as every aggregation region finds it: entry by entry the specification's. -/
theorem adj3 (c : Dev nD) (i : Spec.SA.Idx) : (W3 m c (Proc.devRef .tc main_v23) : Spec.SA.Idx → EReal) i = A i := by
  rw [show W3 m c (Proc.devRef .tc main_v23) = truncf .bf16 (Host.adj (F := Ideal)) bitsLt_bf16_f32 from Host.adj_bf16_of (W0 m c)]
  exact Cert.Lib.Dot.truncf_at _ _ i

/-! ## Two readings of the specification's functions -/

/-- A weight matrix transposed by the host is the specification's transposed reading of it. -/
theorem transposed_of (w : Spec.SW.Idx → EReal) :
    (transpose S256x256 [1, 0] w transposes_S256x256_S256x256_1_0 : Spec.SW.Idx → EReal) = Spec.transposed w := by
  funext i
  obtain ⟨p, q, rfl⟩ : ∃ (p q : Fin 256), i = ix2 p q := ⟨i 0, i 1, eq_ix2 i⟩
  exact Cert.Lib.Dot.transpose_apply2 w _ p q

/-- An aggregation over an array that is the adjacency entry by entry is the specification's aggregation. -/
theorem gatherRelu_of (A' : Spec.SA.Idx → EReal) (hA : ∀ i, A' i = A i) (H : Spec.SX.Idx → EReal) :
    (fun i : Spec.SX.Idx => max (∑ n : Fin 8192, A' (ix2 (i 0) n) * H (ix2 n (i 1))) 0) = Spec.gatherRelu A H := by
  funext i
  unfold Spec.gatherRelu
  simp only [hA]

/-! ## What the items in between leave alone -/

/-- A buffer the host prefix does not write is, when the first region is entered, as the program was started with. -/
theorem prefix_keeps (c : Dev nD) (b : Ref sig .tc) (h0 : b ∉ hostOps0_W) (h1 : b ∉ hostOps0_1_W) (h2 : b ∉ hostOps0_2_W) :
    W3 m c (Proc.devRef .tc b) = W0 m c (Proc.devRef .tc b) :=
  (W3_keeps m c b h2).trans <| (W2_keeps m c b h1).trans (W1_keeps m c b h0)

/-- The activations, when the first region is entered. -/
theorem input_at3 (c : Dev nD) : (W3 m c (Proc.devRef .tc main_arg0) : Spec.SX.Idx → EReal) = x0 m c :=
  prefix_keeps m c main_arg0 (by decide) (by decide) (by decide)

/-- The second weight matrix, when the host transposes it: after the first layer's two regions. -/
theorem weight1_at5 (c : Dev nD) : (W5 m c (Proc.devRef .tc main_arg2) : Spec.SW.Idx → EReal) = w1 m c :=
  (W5_keeps m c main_arg2 (by decide)).trans <| (W4_keeps m c main_arg2 (by decide)).trans <|
    prefix_keeps m c main_arg2 (by decide) (by decide) (by decide)

/-- The third weight matrix, when the host transposes it: after the second layer's two regions. -/
theorem weight2_at8 (c : Dev nD) : (W8 m c (Proc.devRef .tc main_arg3) : Spec.SW.Idx → EReal) = w2 m c :=
  (W8_keeps m c main_arg3 (by decide)).trans <| (W7_keeps m c main_arg3 (by decide)).trans <|
    (W6_keeps m c main_arg3 (by decide)).trans <| (W5_keeps m c main_arg3 (by decide)).trans <|
    (W4_keeps m c main_arg3 (by decide)).trans <| prefix_keeps m c main_arg3 (by decide) (by decide) (by decide)

/-- The bf16 adjacency as the first aggregation region finds it is the one the host prefix wrote, -/
theorem adj_at4 (c : Dev nD) : W4 m c (Proc.devRef .tc main_v23) = W3 m c (Proc.devRef .tc main_v23) :=
  W4_keeps m c main_v23 (by decide)

/-- and so it is as the second finds it, -/
theorem adj_at7 (c : Dev nD) : W7 m c (Proc.devRef .tc main_v23) = W3 m c (Proc.devRef .tc main_v23) :=
  (W7_keeps m c main_v23 (by decide)).trans <| (W6_keeps m c main_v23 (by decide)).trans <|
    (W5_keeps m c main_v23 (by decide)).trans (adj_at4 m c)

/-- and as the third finds it. -/
theorem adj_at10 (c : Dev nD) : W10 m c (Proc.devRef .tc main_v23) = W3 m c (Proc.devRef .tc main_v23) :=
  (W10_keeps m c main_v23 (by decide)).trans <| (W9_keeps m c main_v23 (by decide)).trans <|
    (W8_keeps m c main_v23 (by decide)).trans (adj_at7 m c)

/-! ## The six regions, in order -/

/-- The first dense region leaves the activations times the first weight matrix transposed. -/
theorem dense_0 (c : Dev nD) : (W4 m c (Proc.devRef .tc main_v25) : Spec.SX.Idx → EReal)
    = Spec.dense (x0 m c) (Spec.transposed (w0 m c)) :=
  (W4_arr m c 2).trans <|
    Lin0V.final_rows (V3 m) c (x0 m c) (Spec.transposed (w0 m c)) (input_at3 m c)
      ((Host.wt0_of (W0 m c)).trans (transposed_of (w0 m c)))

/-- The first aggregation region leaves the first layer. -/
theorem layer_0 (c : Dev nD) : (W5 m c (Proc.devRef .tc main_v26) : Spec.SX.Idx → EReal)
    = Spec.layer A (x0 m c) (Spec.transposed (w0 m c)) :=
  (W5_arr m c 2).trans <|
    (Agg1V.final_rows (V4 m) c (W3 m c (Proc.devRef .tc main_v23) : Spec.SA.Idx → EReal)
      (Spec.dense (x0 m c) (Spec.transposed (w0 m c))) (adj_at4 m c) (dense_0 m c)).trans
    (gatherRelu_of _ (adj3 m c) _)

/-- The second dense region leaves the first layer's activations times the second weight matrix transposed. -/
theorem dense_1 (c : Dev nD) : (W7 m c (Proc.devRef .tc main_v28) : Spec.SX.Idx → EReal)
    = Spec.dense (Spec.layer A (x0 m c) (Spec.transposed (w0 m c))) (Spec.transposed (w1 m c)) :=
  (W7_arr m c 2).trans <|
    Lin2V.final_rows (V6 m) c (Spec.layer A (x0 m c) (Spec.transposed (w0 m c))) (Spec.transposed (w1 m c))
      ((W6_keeps m c main_v26 (by decide)).trans (layer_0 m c))
      ((Host.wt1_of (W5 m c)).trans ((congrArg (fun w : Spec.SW.Idx → EReal =>
        (transpose S256x256 [1, 0] w transposes_S256x256_S256x256_1_0 : Spec.SW.Idx → EReal)) (weight1_at5 m c)).trans
        (transposed_of (w1 m c))))

/-- The second aggregation region leaves the second layer. -/
theorem layer_1 (c : Dev nD) : (W8 m c (Proc.devRef .tc main_v29) : Spec.SX.Idx → EReal)
    = Spec.layer A (Spec.layer A (x0 m c) (Spec.transposed (w0 m c))) (Spec.transposed (w1 m c)) :=
  (W8_arr m c 2).trans <|
    (Agg3V.final_rows (V7 m) c (W3 m c (Proc.devRef .tc main_v23) : Spec.SA.Idx → EReal)
      (Spec.dense (Spec.layer A (x0 m c) (Spec.transposed (w0 m c))) (Spec.transposed (w1 m c)))
      (adj_at7 m c) (dense_1 m c)).trans
    (gatherRelu_of _ (adj3 m c) _)

/-- The third dense region leaves the second layer's activations times the third weight matrix transposed. -/
theorem dense_2 (c : Dev nD) : (W10 m c (Proc.devRef .tc main_v31) : Spec.SX.Idx → EReal)
    = Spec.dense (Spec.layer A (Spec.layer A (x0 m c) (Spec.transposed (w0 m c))) (Spec.transposed (w1 m c)))
        (Spec.transposed (w2 m c)) :=
  (W10_arr m c 2).trans <|
    Lin4V.final_rows (V9 m) c
      (Spec.layer A (Spec.layer A (x0 m c) (Spec.transposed (w0 m c))) (Spec.transposed (w1 m c)))
      (Spec.transposed (w2 m c))
      ((W9_keeps m c main_v29 (by decide)).trans (layer_1 m c))
      ((Host.wt2_of (W8 m c)).trans ((congrArg (fun w : Spec.SW.Idx → EReal =>
        (transpose S256x256 [1, 0] w transposes_S256x256_S256x256_1_0 : Spec.SW.Idx → EReal)) (weight2_at8 m c)).trans
        (transposed_of (w2 m c))))

/-- The third aggregation region leaves the third layer. -/
theorem layer_2 (c : Dev nD) : (W11 m c (Proc.devRef .tc main_v32) : Spec.SX.Idx → EReal)
    = Spec.layer A (Spec.layer A (Spec.layer A (x0 m c) (Spec.transposed (w0 m c))) (Spec.transposed (w1 m c)))
        (Spec.transposed (w2 m c)) :=
  (W11_arr m c 2).trans <|
    (Agg5V.final_rows (V10 m) c (W3 m c (Proc.devRef .tc main_v23) : Spec.SA.Idx → EReal)
      (Spec.dense (Spec.layer A (Spec.layer A (x0 m c) (Spec.transposed (w0 m c))) (Spec.transposed (w1 m c)))
        (Spec.transposed (w2 m c)))
      (adj_at10 m c) (dense_2 m c)).trans
    (gatherRelu_of _ (adj3 m c) _)

/-- The result array at the end of the run is the specification's three-layer network of the argument arrays. -/
theorem result_eq (c : Dev nD) : (W11 m c (Proc.devRef .tc main_v32) : Spec.SX.Idx → EReal)
    = Spec.net A (x0 m c) (w0 m c) (w1 m c) (w2 m c) :=
  layer_2 m c

end Cert.KernelIdeal.Net

end
-- ==== Proof.RefRun.lean ====
import proofs.«124142_j80221399155047_1_alg».proof.Proof.Gen.ReferenceIdeal
import Idealize.ShloMosaic.Lib.StableHlo.Run

/-!
# The reference program's run

The reference is a straight line of host operations: the normalised adjacency `adj` of a fixed graph (built
from no argument), then three times a graph layer `x ↦ relu (adj · (x · wᵀ))`. Its two outlined functions (the
membership test of the fifteen listed nodes, and `relu`) are written out at their calls. Every weakly fair
execution terminates with the result buffer at `layer adj (layer adj (layer adj x w₁) w₂) w₃` and the four
arguments as they were.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The normalised adjacency of the fixed graph on 8192 nodes. A node is *inner* when its number is below 64 and is
    not one of the fifteen listed numbers; the edge matrix is `1` everywhere except at the pairs of two inner
    nodes, where it is `0`; `rootDeg i` is the square root of the absolute row sum of the edge matrix; and the
    entry at `(i, j)` is `edge i j * rootDeg i * rootDeg j`. No argument of the program enters it. -/
def adj : FVec F S8192x8192 .f32 :=
  let node : IVec S8192 32 := iotaInDim S8192 32 0
  let listed : IVec S8192 1 :=
    Host.reduce IntOp.ori
      (cmpi .eq
        (broadcastInDim S8192x15 ![0, 1] bcast_S8192x1_S8192x15_0_1 (broadcastInDim S8192x1 ![0] bcast_S8192_S8192x1_0 node))
        (broadcastInDim S8192x15 ![0, 1] bcast_S1x15_S8192x15_0_1
          (broadcastInDim S1x15 ![1] bcast_S15_S1x15_1 (fun i => lit0 (S15.rowMajor i) : IVec S15 32))))
      (constantI S_ 1 0#1) reducesTo_S8192x15_S8192_d1 h_S_
  let inner : IVec S8192 1 :=
    andi (cmpi .slt node (broadcastInDim S8192 ![] bcast_S_S8192 (constantI S_ 32 64#32))) (noti listed)
  let bothInner : IVec S8192x8192 1 :=
    andi
      (broadcastInDim S8192x8192 ![0, 1] bcast_S8192x1_S8192x8192_0_1 (broadcastInDim S8192x1 ![0] bcast_S8192_S8192x1_0 inner))
      (broadcastInDim S8192x8192 ![0, 1] bcast_S1x8192_S8192x8192_0_1 (broadcastInDim S1x8192 ![1] bcast_S8192_S1x8192_1 inner))
  let edge : FVec F S8192x8192 .f32 :=
    subf (broadcastInDim S8192x8192 ![] bcast_S_S8192x8192 (constant (F := F) S_ .f32 0x3F800000#32))
      (uitofp (F := F) .f32 bothInner)
  let rootDeg : FVec F S8192 .f32 :=
    Host.sqrt (Host.absf
      (Host.reduceAdd edge (constant (F := F) S_ .f32 0x00000000#32) reducesTo_S8192x8192_S8192_d1 h_S_))
  mulf
    (mulf edge
      (broadcastInDim S8192x8192 ![0, 1] bcast_S8192x1_S8192x8192_0_1 (broadcastInDim S8192x1 ![0] bcast_S8192_S8192x1_0 rootDeg)))
    (broadcastInDim S8192x8192 ![0, 1] bcast_S1x8192_S8192x8192_0_1 (broadcastInDim S1x8192 ![1] bcast_S8192_S1x8192_1 rootDeg))

/-- One graph layer: the features times the transposed weights, aggregated along the adjacency, then the
    positive part. -/
def layer (a : FVec F S8192x8192 .f32) (x : FVec F S8192x256 .f32) (w : FVec F S256x256 .f32) : FVec F S8192x256 .f32 :=
  maximumf
    (Host.dotGeneral dot_S8192x8192_S8192x256_S8192x256_1_0_0_1_n_n none a
      (Host.dotGeneral dot_S8192x256_S256x256_S8192x256_1_0_0_1_n_n none x
        (transpose S256x256 [1, 0] w transposes_S256x256_S256x256_1_0)))
    (broadcastInDim S8192x256 ![] bcast_S_S8192x256 (constant (F := F) S_ .f32 0x00000000#32))

/-- The reference's 51 operations in order: the two that make the node numbers and the listed numbers, the
    seven of the membership test, the twenty-four that finish the adjacency, and per layer the transpose, the two
    products and the three of `relu`. -/
abbrev ops : List (HloOp τ sig (Elt F)) :=
  [ nullary main_c (fun i => lit0 (S15.rowMajor i)),
    nullary main_v0 (iotaInDim S8192 32 0),
    TRef.unary (.of main_v0 : TRef sig ⟨S8192, .i32⟩) main_call0.v0 (broadcastInDim S8192x1 ![0] bcast_S8192_S8192x1_0),
    TRef.unary (.of main_c : TRef sig ⟨S15, .i32⟩) main_call0.v1 (broadcastInDim S1x15 ![1] bcast_S15_S1x15_1),
    TRef.unary main_call0.v0 main_call0.v2 (broadcastInDim S8192x15 ![0, 1] bcast_S8192x1_S8192x15_0_1),
    TRef.unary main_call0.v1 main_call0.v3 (broadcastInDim S8192x15 ![0, 1] bcast_S1x15_S8192x15_0_1),
    TRef.binary main_call0.v2 main_call0.v3 main_call0.v4 (cmpi .eq),
    TRef.nullary main_call0.c (constantI S_ 1 0#1),
    TRef.binary main_call0.v4 main_call0.c main_call0.v5 (fun x v => Host.reduce IntOp.ori x v reducesTo_S8192x15_S8192_d1 h_S_),
    nullary main_c_0 (constantI S_ 32 64#32),
    unary main_c_0 main_v2 (broadcastInDim S8192 ![] bcast_S_S8192 : (⟨S_, .i32⟩ : BufTy).Contents (Elt F) → (⟨S8192, .i32⟩ : BufTy).Contents (Elt F)),
    binary main_v0 main_v2 main_v3 (cmpi .slt : (⟨S8192, .i32⟩ : BufTy).Contents (Elt F) → (⟨S8192, .i32⟩ : BufTy).Contents (Elt F) → (⟨S8192, .i1⟩ : BufTy).Contents (Elt F)),
    unary main_v1 main_v4 (noti : (⟨S8192, .i1⟩ : BufTy).Contents (Elt F) → (⟨S8192, .i1⟩ : BufTy).Contents (Elt F)),
    binary main_v3 main_v4 main_v5 (andi : (⟨S8192, .i1⟩ : BufTy).Contents (Elt F) → (⟨S8192, .i1⟩ : BufTy).Contents (Elt F) → (⟨S8192, .i1⟩ : BufTy).Contents (Elt F)),
    unary main_v5 main_v6 (broadcastInDim S8192x1 ![0] bcast_S8192_S8192x1_0 : (⟨S8192, .i1⟩ : BufTy).Contents (Elt F) → (⟨S8192x1, .i1⟩ : BufTy).Contents (Elt F)),
    unary main_v5 main_v7 (broadcastInDim S1x8192 ![1] bcast_S8192_S1x8192_1 : (⟨S8192, .i1⟩ : BufTy).Contents (Elt F) → (⟨S1x8192, .i1⟩ : BufTy).Contents (Elt F)),
    unary main_v6 main_v8 (broadcastInDim S8192x8192 ![0, 1] bcast_S8192x1_S8192x8192_0_1 : (⟨S8192x1, .i1⟩ : BufTy).Contents (Elt F) → (⟨S8192x8192, .i1⟩ : BufTy).Contents (Elt F)),
    unary main_v7 main_v9 (broadcastInDim S8192x8192 ![0, 1] bcast_S1x8192_S8192x8192_0_1 : (⟨S1x8192, .i1⟩ : BufTy).Contents (Elt F) → (⟨S8192x8192, .i1⟩ : BufTy).Contents (Elt F)),
    binary main_v8 main_v9 main_v10 (andi : (⟨S8192x8192, .i1⟩ : BufTy).Contents (Elt F) → (⟨S8192x8192, .i1⟩ : BufTy).Contents (Elt F) → (⟨S8192x8192, .i1⟩ : BufTy).Contents (Elt F)),
    unary main_v10 main_v11 (uitofp .f32 : (⟨S8192x8192, .i1⟩ : BufTy).Contents (Elt F) → (⟨S8192x8192, .f32⟩ : BufTy).Contents (Elt F)),
    nullary main_cst (constant S_ .f32 0x3F800000#32),
    unary main_cst main_v12 (broadcastInDim S8192x8192 ![] bcast_S_S8192x8192 : (⟨S_, .f32⟩ : BufTy).Contents (Elt F) → (⟨S8192x8192, .f32⟩ : BufTy).Contents (Elt F)),
    binary main_v12 main_v11 main_v13 (subf : (⟨S8192x8192, .f32⟩ : BufTy).Contents (Elt F) → (⟨S8192x8192, .f32⟩ : BufTy).Contents (Elt F) → (⟨S8192x8192, .f32⟩ : BufTy).Contents (Elt F)),
    nullary main_cst_1 (constant S_ .f32 0x00000000#32),
    binary main_v13 main_cst_1 main_v14 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v14 main_v15 (Host.absf : (⟨S8192, .f32⟩ : BufTy).Contents (Elt F) → (⟨S8192, .f32⟩ : BufTy).Contents (Elt F)),
    unary main_v15 main_v16 (Host.sqrt : (⟨S8192, .f32⟩ : BufTy).Contents (Elt F) → (⟨S8192, .f32⟩ : BufTy).Contents (Elt F)),
    unary main_v16 main_v17 (broadcastInDim S8192x1 ![0] bcast_S8192_S8192x1_0 : (⟨S8192, .f32⟩ : BufTy).Contents (Elt F) → (⟨S8192x1, .f32⟩ : BufTy).Contents (Elt F)),
    unary main_v17 main_v18 (broadcastInDim S8192x8192 ![0, 1] bcast_S8192x1_S8192x8192_0_1 : (⟨S8192x1, .f32⟩ : BufTy).Contents (Elt F) → (⟨S8192x8192, .f32⟩ : BufTy).Contents (Elt F)),
    binary main_v13 main_v18 main_v19 (mulf : (⟨S8192x8192, .f32⟩ : BufTy).Contents (Elt F) → (⟨S8192x8192, .f32⟩ : BufTy).Contents (Elt F) → (⟨S8192x8192, .f32⟩ : BufTy).Contents (Elt F)),
    unary main_v16 main_v20 (broadcastInDim S1x8192 ![1] bcast_S8192_S1x8192_1 : (⟨S8192, .f32⟩ : BufTy).Contents (Elt F) → (⟨S1x8192, .f32⟩ : BufTy).Contents (Elt F)),
    unary main_v20 main_v21 (broadcastInDim S8192x8192 ![0, 1] bcast_S1x8192_S8192x8192_0_1 : (⟨S1x8192, .f32⟩ : BufTy).Contents (Elt F) → (⟨S8192x8192, .f32⟩ : BufTy).Contents (Elt F)),
    binary main_v19 main_v21 main_v22 (mulf : (⟨S8192x8192, .f32⟩ : BufTy).Contents (Elt F) → (⟨S8192x8192, .f32⟩ : BufTy).Contents (Elt F) → (⟨S8192x8192, .f32⟩ : BufTy).Contents (Elt F)),
    unary main_arg1 main_v23 ((transpose S256x256 [1, 0] · transposes_S256x256_S256x256_1_0) : (⟨S256x256, .f32⟩ : BufTy).Contents (Elt F) → (⟨S256x256, .f32⟩ : BufTy).Contents (Elt F)),
    binary main_arg0 main_v23 main_v24 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    binary main_v22 main_v24 main_v25 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    TRef.nullary main_call1.cst (constant S_ .f32 0x00000000#32),
    TRef.unary main_call1.cst main_call1.v0 (broadcastInDim S8192x256 ![] bcast_S_S8192x256),
    TRef.binary (.of main_v25 : TRef sig ⟨S8192x256, .f32⟩) main_call1.v0 main_call1.v1 maximumf,
    unary main_arg2 main_v27 ((transpose S256x256 [1, 0] · transposes_S256x256_S256x256_1_0) : (⟨S256x256, .f32⟩ : BufTy).Contents (Elt F) → (⟨S256x256, .f32⟩ : BufTy).Contents (Elt F)),
    binary main_v26 main_v27 main_v28 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    binary main_v22 main_v28 main_v29 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    TRef.nullary main_call2.cst (constant S_ .f32 0x00000000#32),
    TRef.unary main_call2.cst main_call2.v0 (broadcastInDim S8192x256 ![] bcast_S_S8192x256),
    TRef.binary (.of main_v29 : TRef sig ⟨S8192x256, .f32⟩) main_call2.v0 main_call2.v1 maximumf,
    unary main_arg3 main_v31 ((transpose S256x256 [1, 0] · transposes_S256x256_S256x256_1_0) : (⟨S256x256, .f32⟩ : BufTy).Contents (Elt F) → (⟨S256x256, .f32⟩ : BufTy).Contents (Elt F)),
    binary main_v30 main_v31 main_v32 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    binary main_v22 main_v32 main_v33 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    TRef.nullary main_call3.cst (constant S_ .f32 0x00000000#32),
    TRef.unary main_call3.cst main_call3.v0 (broadcastInDim S8192x256 ![] bcast_S_S8192x256),
    TRef.binary (.of main_v33 : TRef sig ⟨S8192x256, .f32⟩) main_call3.v0 main_call3.v1 maximumf ]

set_option maxRecDepth 2048 in
/-- The program is that straight line: the two outlined functions opened at their calls, sequencing
    re-associated. -/
theorem main_eq (c : Dev nD) : main (F := F) c = seq ops := by
  simp only [main, fn_in1d.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., unary_bufs_sub .., unary_bufs_sub .., unary_bufs_sub ..,
    binary_bufs_sub .., nullary_bufs_sub .., binary_bufs_sub .., nullary_bufs_sub .., unary_bufs_sub .., binary_bufs_sub ..,
    unary_bufs_sub .., binary_bufs_sub .., unary_bufs_sub .., unary_bufs_sub .., unary_bufs_sub .., unary_bufs_sub ..,
    binary_bufs_sub .., unary_bufs_sub .., nullary_bufs_sub .., unary_bufs_sub .., binary_bufs_sub .., nullary_bufs_sub ..,
    binary_bufs_sub .., unary_bufs_sub .., unary_bufs_sub .., unary_bufs_sub .., unary_bufs_sub .., binary_bufs_sub ..,
    unary_bufs_sub .., unary_bufs_sub .., binary_bufs_sub .., unary_bufs_sub .., binary_bufs_sub .., binary_bufs_sub ..,
    nullary_bufs_sub .., unary_bufs_sub .., binary_bufs_sub .., unary_bufs_sub .., binary_bufs_sub .., binary_bufs_sub ..,
    nullary_bufs_sub .., unary_bufs_sub .., binary_bufs_sub .., unary_bufs_sub .., binary_bufs_sub .., binary_bufs_sub ..,
    nullary_bufs_sub .., unary_bufs_sub .., binary_bufs_sub ..⟩

/-- The fold of the operations at the result buffer: three layers over `adj` of whatever the four argument
    buffers held. The typed buffers of the outlined functions carry their contents unchanged. -/
theorem result_of (V : Valuation τ sig (Elt F)) :
    after ops V (Proc.devRef .tc main_v34)
      = layer adj (layer adj (layer adj (V (Proc.devRef .tc main_arg0)) (V (Proc.devRef .tc main_arg1)))
          (V (Proc.devRef .tc main_arg2))) (V (Proc.devRef .tc main_arg3)) := by
  after_results_simp
  simp only [TRef.toBuf, TRef.ofBuf, cast_eq]
  rfl

/-- No operation writes an argument. -/
theorem arg0_kept (V : Valuation τ sig (Elt F)) : after ops V (Proc.devRef .tc main_arg0) = V (Proc.devRef .tc main_arg0) := by
  after_results_simp
theorem arg1_kept (V : Valuation τ sig (Elt F)) : after ops V (Proc.devRef .tc main_arg1) = V (Proc.devRef .tc main_arg1) := by
  after_results_simp
theorem arg2_kept (V : Valuation τ sig (Elt F)) : after ops V (Proc.devRef .tc main_arg2) = V (Proc.devRef .tc main_arg2) := by
  after_results_simp
theorem arg3_kept (V : Valuation τ sig (Elt F)) : after ops V (Proc.devRef .tc main_arg3) = V (Proc.devRef .tc main_arg3) := by
  after_results_simp

/-- On every device, from any memory with zero counters: every weakly fair execution of the reference terminates
    with the result at three layers over `adj` of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34)
          = layer adj (layer adj (layer adj (m ((c.tc : Thread nD τ).loc main_arg0)) (m ((c.tc : Thread nD τ).loc main_arg1)))
              (m ((c.tc : Thread nD τ).loc main_arg2))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c main_v34).trans (result_of _), (h c main_arg0).trans (arg0_kept _), (h c main_arg1).trans (arg1_kept _),
      (h c main_arg2).trans (arg2_kept _), (h c main_arg3).trans (arg3_kept _)⟩)
    (run_seq scopedRefs_eq scopedSems_eq defs main (fun _ => ops) main_eq (fun _ => ops_sub) m ρ)

end Cert.ReferenceIdeal.RefRun

end
-- ==== Proof.RefBridge.lean ====
/-
  The reference's layer, read index by index, is the layer function of the specification.

  The reference computes one layer as the larger of zero and A · (x · Wᵀ), the two products being the host's contractions
  over the shared axis. At the ideal values each contraction at entry (p, q) is the plain sum over the shared coordinate, the
  transposed weight matrix read at (k, q) is the weight matrix at (q, k), and the larger-of against a spread zero is the
  larger-of against 0: entry by entry this is `Spec.layer` at the transposed weights.
-/
import proofs.«124142_j80221399155047_1_alg».proof.Proof.RefRun
import proofs.«124142_j80221399155047_1_alg».proof.Proof.Spec
import proofs.«124142_j80221399155047_1_alg».proof.Proof.LibDot

noncomputable section

open scoped BigOperators
open Idealize.ShloMosaic Idealize.ShloMosaic.ValueIdx

namespace Cert.RefBridge

open Cert.ReferenceIdeal

/-- The reference's layer is the specification's layer at the transposed weights. -/
theorem layer_eq (a : FVec Ideal S8192x8192 .f32) (x : FVec Ideal S8192x256 .f32) (w : FVec Ideal S256x256 .f32) :
    RefRun.layer (F := Ideal) a x w = Spec.layer a x (Spec.transposed w) := by
  funext i
  obtain ⟨p, q, rfl⟩ : ∃ (p : Fin 8192) (q : Fin 256), i = ix2 p q := ⟨i 0, i 1, eq_ix2 i⟩
  unfold RefRun.layer Spec.layer Spec.gatherRelu Spec.dense Spec.transposed
  rw [Cert.Lib.Dot.relu_spread_at, Cert.Lib.Dot.host_dot_apply _ rfl rfl rfl rfl rfl rfl]
  refine congrArg (fun s => max s (0 : EReal)) (Finset.sum_congr rfl fun k _ => ?_)
  rw [Cert.Lib.Dot.host_dot_apply _ rfl rfl rfl rfl rfl rfl]
  refine congrArg (fun s => a (ix2 p k) * s) (Finset.sum_congr rfl fun j _ => ?_)
  rw [Cert.Lib.Dot.transpose_apply2]

/-- The reference's three layers are the specification's network. -/
theorem net_eq (a : FVec Ideal S8192x8192 .f32) (x : FVec Ideal S8192x256 .f32) (w0 w1 w2 : FVec Ideal S256x256 .f32) :
    RefRun.layer (F := Ideal) a (RefRun.layer (F := Ideal) a (RefRun.layer (F := Ideal) a x w0) w1) w2 = Spec.net a x w0 w1 w2 := by
  unfold Spec.net
  rw [layer_eq, layer_eq, layer_eq]

end Cert.RefBridge

end
-- ==== Proof.AdjSame.lean ====
import proofs.«124142_j80221399155047_1_alg».proof.Proof.RefRun
import proofs.«124142_j80221399155047_1_alg».proof.Proof.KiHost
import Idealize.ShloMosaic.PureOps.Ideal

/-!
# One adjacency on both sides

The kernel program and the reference build the normalised adjacency with the same operations, over shapes
that are the same literals and over the same fifteen listed numbers; only the names differ. Read over the
extended reals the two terms are therefore one and the same.
-/

namespace Cert.AdjSame

open Idealize.ShloMosaic

/-- The adjacency the kernel program rounds and hands to its launches is the reference's: both are the same
    composition, and the shapes, the table of listed numbers and the shape relations they are built over unfold
    to the same literals. -/
theorem adj_same : Cert.KernelIdeal.Host.adj (F := Ideal) = Cert.ReferenceIdeal.RefRun.adj (F := Ideal) := rfl

end Cert.AdjSame
-- ==== Proof.lean ====
/-
  A three-layer graph network on 8192 nodes with 256 features: per layer the activations are multiplied by the transposed
  weight matrix (a dense kernel over four row blocks), aggregated along one fixed normalised adjacency (a kernel over an
  8 × 4 grid that accumulates four column blocks of the adjacency product in a scratch buffer and rectifies at the last) and
  the adjacency itself is computed once by host operations that the reference performs verbatim.

  The frames. Each kernel program is its eleven items in order — three host stretches, then per layer a dense region, an
  aggregation region and the next layer's transpose between them —, every region a step between two named contents of the
  buffers (Proof/KiRun.lean for the idealized program, Proof/KeRun.lean for the word-level one: the same text at the other
  float instance), and the argument arrays are written by no item. The reference is fifty-one host operations run in order
  (Proof/RefRun.lean).

  The values. At the ideal values a change of float format is the identity, a matrix product into a zero accumulator is the
  plain sum over the shared coordinate, and the four accumulated column blocks regroup ONE sum over the 8192 nodes, so each
  region of the kernel program leaves exactly `Spec.dense` or `Spec.gatherRelu` of what it was handed (Proof/KiValue.lean);
  the reference's layer is the same two sums with the weight matrix read transposed (Proof/RefBridge.lean); and the two
  adjacency arrays are one term (Proof/AdjSame.lean). No finiteness of the inputs is used: only that addition of extended
  reals is commutative and associative.
-/
import proofs.«124142_j80221399155047_1_alg».proof.Defs
import proofs.«124142_j80221399155047_1_alg».proof.Proof.Gen.Kernel
import proofs.«124142_j80221399155047_1_alg».proof.Proof.Gen.KernelIdeal
import proofs.«124142_j80221399155047_1_alg».proof.Proof.Gen.ReferenceIdeal
import proofs.«124142_j80221399155047_1_alg».proof.Proof.Gen.Pre_finite_inputs
import proofs.«124142_j80221399155047_1_alg».proof.Proof.KeRun
import proofs.«124142_j80221399155047_1_alg».proof.Proof.KiRun
import proofs.«124142_j80221399155047_1_alg».proof.Proof.KiValue
import proofs.«124142_j80221399155047_1_alg».proof.Proof.RefRun
import proofs.«124142_j80221399155047_1_alg».proof.Proof.RefBridge
import proofs.«124142_j80221399155047_1_alg».proof.Proof.AdjSame
import Idealize.ShloMosaic.Adequacy
import Idealize.ShloMosaic.Init

noncomputable section

namespace Cert.Proof

open Idealize.ShloMosaic Idealize.SL.Sem

/-- The word-level kernel program runs to the end and leaves its arguments alone. -/
theorem frame_k : Cert.frame_Kernel := fun m ρ _ => Cert.Kernel.Run.frame (F := Bits) m ρ

/-- So does the idealized one. -/
theorem frame_ki : Cert.frame_KernelIdeal := fun m ρ _ => Cert.KernelIdeal.Run.frame (F := Ideal) m ρ

/-- The reference's run, its result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both programs end with the specification's network of the arguments: the kernel program by its regions' values, the
    reference by its layers read index by index, over one adjacency. -/
theorem algebraic : Cert.algebraic_KernelIdeal_ReferenceIdeal := by
  intro m ρ m' ρ' _ hagree
  refine ⟨fun c => Cert.Spec.net Cert.KernelIdeal.Net.A (Cert.KernelIdeal.Net.x0 m c) (Cert.KernelIdeal.Net.w0 m c)
    (Cert.KernelIdeal.Net.w1 m c) (Cert.KernelIdeal.Net.w2 m c), ?_, ?_⟩
  · exact (θ_run Cert.KernelIdeal.defs _ _).mono
      (fun _ h c => ⟨(h c).1.trans (Cert.KernelIdeal.Net.result_eq m c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2.1, (hagree c).2.2.2, Cert.RefBridge.net_eq, ← Cert.AdjSame.adj_same]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
